-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S2048 : Shape := ⟨1, ![2048]⟩
abbrev S2048x1024 : Shape := ⟨2, ![2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S4x2048x1024 .f32) (main_arg1 : FVec F S4096x1024 .f32) (main_arg2 : FVec F S2048 .f32) (main_arg3 : FVec F S2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Kernel.lean ====
abbrev S4x2048x1024 : Shape := ⟨3, ![4, 2048, 1024]⟩
abbrev S4096x1024 : Shape := ⟨2, ![4096, 1024]⟩
abbrev S2048 : Shape := ⟨1, ![2048]⟩
abbrev S2048x1024 : Shape := ⟨2, ![2048, 1024]⟩
abbrev S8192x1024 : Shape := ⟨2, ![8192, 1024]⟩
abbrev S4096x2048 : Shape := ⟨2, ![4096, 2048]⟩
abbrev S1024x1024 : Shape := ⟨2, ![1024, 1024]⟩
abbrev S512x1024 : Shape := ⟨2, ![512, 1024]⟩
abbrev S512 : Shape := ⟨1, ![512]⟩
abbrev S1024x512 : Shape := ⟨2, ![1024, 512]⟩
abbrev S512x1 : Shape := ⟨2, ![512, 1]⟩
abbrev S1024 : Shape := ⟨1, ![1024]⟩
abbrev S1024x1 : Shape := ⟨2, ![1024, 1]⟩
abbrev S1x512 : Shape := ⟨2, ![1, 512]⟩
abbrev S8192x2048 : Shape := ⟨2, ![8192, 2048]⟩
abbrev S8192x4096 : Shape := ⟨2, ![8192, 4096]⟩
abbrev S4x2048x4096 : Shape := ⟨3, ![4, 2048, 4096]⟩

abbrev nBuf : Space → Nat
  | .hbm => 9
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S2048, .f32⟩
  | .hbm, ⟨3, _⟩ => ⟨S2048x1024, .f32⟩
  | .hbm, ⟨4, _⟩ => ⟨S8192x1024, .f32⟩
  | .hbm, ⟨5, _⟩ => ⟨S4096x2048, .bf16⟩
  | .hbm, ⟨6, _⟩ => ⟨S8192x2048, .bf16⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512, .f32⟩
  | .local _ .vmem, ⟨5, _⟩ => ⟨S512, .f32⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S512x1024, .f32⟩
  | .local _ .vmem, ⟨11, _⟩ => ⟨S512x1024, .f32⟩
  | .local _ .vmem, ⟨12, _⟩ => ⟨S512, .f32⟩
  | .local _ .vmem, ⟨13, _⟩ => ⟨S512, .f32⟩
  | .local _ .vmem, ⟨14, _⟩ => ⟨S1024x512, .bf16⟩
  | .local _ .vmem, ⟨15, _⟩ => ⟨S1024x512, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![8, 4, 2], ![false, false, false]⟩

def k2_cond2 (i : grid2.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  inb_S512_S512_0 : ∀ a, (![0] : Fin 1 → Nat) a + S512.size a ≤ S512.size a
  h_S512 : 0 < S512.numel
  shapeCasts_S512_S512x1 : S512.ShapeCasts S512x1
  broadcasts_S512x1_S512x1024 : S512x1.Broadcasts S512x1024
  bitsLt_bf16_f32 : FTy.bits .bf16 < FTy.bits .f32
  transposes_S512x1024_p1_0_S1024x512 : S512x1024.Transposes [1, 0] S1024x512
  reduces_S1024x1024_S1024 : S1024x1024.Reduces [1] S1024
  shapeCasts_S1024_S1024x1 : S1024.ShapeCasts S1024x1
  shapeCasts_S512_S1x512 : S512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S1024x1024_S1024x1024 : S1024x1024.ShapeCasts S1024x1024
  transposes_S1024x1024_p1_0_S1024x1024 : S1024x1024.Transposes [1, 0] S1024x1024
  shapeCasts_S8192x4096_S4x2048x4096 : S8192x4096.ShapeCasts S4x2048x4096
  dot_S1024x1024_S1024x512_S1024x512_1_0_0_1_n_n_wf : DotDims.WF S1024x1024 S1024x512 S1024x512 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S2048.size a
  hwx0_2 : ∀ i : grid0.Coords, EltTy.bits .f32 = 32 ∨ (Rect.block (s := S2048) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x2048.size a
  hwx0_3 : ∀ i : grid0.Coords, EltTy.bits .bf16 = 32 ∨ (Rect.block (s := S4096x2048) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S2048x1024.size a
  hwx1_1 : ∀ i : grid1.Coords, EltTy.bits .f32 = 32 ∨ (Rect.block (s := S2048x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S2048.size a
  hwx1_2 : ∀ i : grid1.Coords, EltTy.bits .f32 = 32 ∨ (Rect.block (s := S2048) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x2048.size a
  hwx1_3 : ∀ i : grid1.Coords, EltTy.bits .bf16 = 32 ∨ (Rect.block (s := S8192x2048) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x2048.size a
  hwx2_0 : ∀ i : grid2.Coords, EltTy.bits .bf16 = 32 ∨ (Rect.block (s := S8192x2048) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x2048.size a
  hwx2_1 : ∀ i : grid2.Coords, EltTy.bits .bf16 = 32 ∨ (Rect.block (s := S4096x2048) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x4096.size a
  hwx2_2 : ∀ i : grid2.Coords, EltTy.bits .f32 = 32 ∨ (Rect.block (s := S8192x4096) S1024x1024.size (cc2_transform_2 i) (hinb2_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S2048 : Shape := ⟨1, ![2048]⟩
abbrev S2048x1024 : Shape := ⟨2, ![2048, 1024]⟩
abbrev S_ : Shape := ⟨0, ![]⟩
abbrev S2048x1 : Shape := ⟨2, ![2048, 1]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩
abbrev S4x2048x2048 : Shape := ⟨3, ![4, 2048, 2048]⟩
abbrev S4x2048 : Shape := ⟨2, ![4, 2048]⟩
abbrev S4x2048x1 : Shape := ⟨3, ![4, 2048, 1]⟩
abbrev S1x1x2048 : Shape := ⟨3, ![1, 1, 2048]⟩
abbrev S4x2048x4096 : Shape := ⟨3, ![4, 2048, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S2048, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1024, .f32⟩
  | .hbm, ⟨8, _⟩ => ⟨S2048x1024, .f32⟩
  | .hbm, ⟨9, _⟩ => ⟨S4096x2048, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S4x2048x2048, .f32⟩
  | .hbm, ⟨34, _⟩ => ⟨S4x2048x1024, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S2048, .f32⟩
  | .hbm, ⟨42, _⟩ => ⟨S1x1x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S4x2048x2048, .f32⟩
  | .hbm, ⟨50, _⟩ => ⟨S4x2048x2048, .f32⟩
  | .hbm, ⟨51, _⟩ => ⟨S1x1x2048, .f32⟩
  | .hbm, ⟨52, _⟩ => ⟨S4x2048x2048, .f32⟩
  | .hbm, ⟨53, _⟩ => ⟨S4x2048x2048, .f32⟩
  | .hbm, ⟨54, _⟩ => ⟨S4x2048x4096, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S2048_S1x2048_1 : S2048.BroadcastsInDim S1x2048 (![1] : Fin 1 → Fin S1x2048.rank)
  bcast_S4096x1_S4096x2048_0_1 : S4096x1.BroadcastsInDim S4096x2048 (![0, 1] : Fin 2 → Fin S4096x2048.rank)
  bcast_S1x2048_S4096x2048_0_1 : S1x2048.BroadcastsInDim S4096x2048 (![0, 1] : Fin 2 → Fin S4096x2048.rank)
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S2048_S1x1x2048_2 : S2048.BroadcastsInDim S1x1x2048 (![2] : Fin 1 → Fin S1x1x2048.rank)
  bcast_S4x2048x1_S4x2048x2048_0_1_2 : S4x2048x1.BroadcastsInDim S4x2048x2048 (![0, 1, 2] : Fin 3 → Fin S4x2048x2048.rank)
  bcast_S1x1x2048_S4x2048x2048_0_1_2 : S1x1x2048.BroadcastsInDim S4x2048x2048 (![0, 1, 2] : Fin 3 → Fin S4x2048x2048.rank)
  dot_S4096x1024_S2048x1024_S4096x2048_1_1_0_0_n_n_wf : DotDims.WF S4096x1024 S2048x1024 S4096x2048 [1] [1] [0] [0] [] []
  dot_S4x2048x1024_S2048x1024_S4x2048x2048_2_1_01_0_n_n_wf : DotDims.WF S4x2048x1024 S2048x1024 S4x2048x2048 [2] [1] [0, 1] [0] [] []
  dot_S4x2048x2048_S4096x2048_S4x2048x4096_2_1_01_0_n_n_wf : DotDims.WF S4x2048x2048 S4096x2048 S4x2048x4096 [2] [1] [0, 1] [0] [] []

variable [Facts₀]

def dot_S4096x1024_S2048x1024_S4096x2048_1_1_0_0_n_n : DotDims S4096x1024 S2048x1024 S4096x2048 where
  lhsContracting := [1]
  rhsContracting := [1]
  lhsNonContracting := [0]
  rhsNonContracting := [0]
  lhsBatch := []
  rhsBatch := []
  wf := dot_S4096x1024_S2048x1024_S4096x2048_1_1_0_0_n_n_wf
def dot_S4x2048x1024_S2048x1024_S4x2048x2048_2_1_01_0_n_n : DotDims S4x2048x1024 S2048x1024 S4x2048x2048 where
  lhsContracting := [2]
  rhsContracting := [1]
  lhsNonContracting := [0, 1]
  rhsNonContracting := [0]
  lhsBatch := []
  rhsBatch := []
  wf := dot_S4x2048x1024_S2048x1024_S4x2048x2048_2_1_01_0_n_n_wf
def dot_S4x2048x2048_S4096x2048_S4x2048x4096_2_1_01_0_n_n : DotDims S4x2048x2048 S4096x2048 S4x2048x4096 where
  lhsContracting := [2]
  rhsContracting := [1]
  lhsNonContracting := [0, 1]
  rhsNonContracting := [0]
  lhsBatch := []
  rhsBatch := []
  wf := dot_S4x2048x2048_S4096x2048_S4x2048x4096_2_1_01_0_n_n_wf

class Facts : Prop extends Facts₀ where

variable [Facts]
-- ==== Proof.LibWholeBuffer.lean ====
/-
  Two facts about a buffer accessed through the rectangle that is the WHOLE buffer at zero offsets, which is how a
  kernel body that loads and stores whole staging blocks touches them:
  a load through it of contents that read `x` reads `x`, and one store through it leaves exactly its payload,
  whatever the buffer held before.
-/
import Idealize.ShloMosaic.Lib.Pipeline.FrameBody
import Idealize.ShloMosaic.Lib.Pipeline.Value

noncomputable section

namespace Idealize.ShloMosaic.WholeBuffer

open Idealize.ShloMosaic

variable {sig : RefSig} {κ : Kind} {sp : Space} {S : Shape} {e : EltTy} {Val : EltTy → Type}

/-- A load through the whole-buffer rectangle reads the contents. -/
theorem load_whole (v : View sig κ sp S e) (f : v.ty.Contents Val) {off : Fin S.rank → Nat} (hz : off = fun _ => 0)
    (inb : ∀ a, off a + S.size a ≤ S.size a) {x : S.Idx → Val e} (hx : v.read Val f = x) :
    v.readAt Val (Rect.unit off S.size inb).toLoadRect f = x := by
  subst hx
  exact (View.readAt_eq_ld v f (Rect.unit off S.size inb)).trans (View.ld_unit_zero hz inb _)

/-- One store through the whole-buffer rectangle leaves its payload, whatever was there. -/
theorem store_whole [∀ e, Nonempty (Val e)] (v : View sig κ sp S e) (f : v.ty.Contents Val) {off : Fin S.rank → Nat}
    (hz : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

end Idealize.ShloMosaic.WholeBuffer

end
-- ==== Proof.K.Rf0.lean ====
/-
  Region 0 of the program: the feature kernel over the 4096 weight rows, one grid point per pair (block of 1024 rows,
  block of 512 features). At a point the body reads its three input blocks whole, and leaves in the output block
  exactly the payload computed from them, whatever the block held before. Stated at the contents `V` the region
  finds in the core's buffers.
-/
import proofs.«133913_j10093173146229_1_alg».proof.Proof.Gen.Kernel.Launch
import proofs.«133913_j10093173146229_1_alg».proof.Proof.Gen.Kernel.Skeleton
import proofs.«133913_j10093173146229_1_alg».proof.Proof.Gen.Kernel.Points
import proofs.«133913_j10093173146229_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0: the arrays as found; after the body each input block in place and the output block
    at the payload of the three input blocks; nothing owed, nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## What the input buffers hold when the body is entered -/

/-- The first input's buffer holds its block at every point: where the block index did not move the buffer still
    holds the previous point's block, which is the same one. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The second input's buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The third input's buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body on whole buffers -/

set_option maxHeartbeats 1000000 in
/-- The body on four whole buffers, the three inputs reading `x0`, `x1`, `x2` and the output at any contents: it
    reads each input whole, and its one store goes through the rectangle that is the whole output buffer, so the
    inputs are left as they were and the output reads exactly the payload of the three. -/
theorem sound_kernel0 (c : Dev nD) (E : Set ℕ) (i : grid0.Coords)
    (arg2 : Memref sig .tc .vmem S1024x1024 .f32) (harg2 : arg2.IsWhole)
    (arg3 : Memref sig .tc .vmem S512x1024 .f32) (harg3 : arg3.IsWhole)
    (arg4 : Memref sig .tc .vmem S512 .f32) (harg4 : arg4.IsWhole)
    (arg5 : Memref sig .tc .vmem S1024x512 .bf16) (harg5 : arg5.IsWhole)
    (x0 : Vec F S1024x1024 .f32) (x1 : Vec F S512x1024 .f32) (x2 : Vec F S512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k0_pay1 x0 x1 x2)) -∗ K ⟨⟩))
      ⊢ wp frame (wpE (defs₀ (F := F)) Variants.none c none) E
          (cc0__rf_map_kernel i arg2 harg2 arg3 harg3 arg4 harg4 arg5 harg5) K := by
  simp only [cc0__rf_map_kernel_eq_skeleton]; unfold cc0__rf_map_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz2 : (![0, 0] : Fin 2 → Nat) = fun _ => 0 := funext fun a => by fin_cases a <;> rfl
  have hz1 : (![0] : Fin 1 → Nat) = fun _ => 0 := funext fun a => by fin_cases a; rfl
  rw [WholeBuffer.store_whole arg5.view f3 hz2 inb_S1024x512_S1024x512_0_0,
    WholeBuffer.load_whole arg2.view f0 hz2 inb_S1024x1024_S1024x1024_0_0 rfl,
    WholeBuffer.load_whole arg3.view f1 hz2 inb_S512x1024_S512x1024_0_0 rfl,
    WholeBuffer.load_whole arg4.view f2 hz1 inb_S512_S512_0 rfl]

/-! ## The body obligation, at a generic point -/

/-- What the body is handed at point `t`: the region's invariant, what the core owes, and each window's current
    buffer, the inputs' at their blocks and the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the whole-buffer triple applies; the invariant
    and the debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Rf1.lean ====
/-
  Region 1 of the program: the feature kernel over the 8192 flattened input rows, one grid point per pair (block of 1024 rows,
  block of 512 features). At a point the body reads its three input blocks whole, and leaves in the output block
  exactly the payload computed from them, whatever the block held before. Stated at the contents `V` the region
  finds in the core's buffers.
-/
import proofs.«133913_j10093173146229_1_alg».proof.Proof.Gen.Kernel.Launch
import proofs.«133913_j10093173146229_1_alg».proof.Proof.Gen.Kernel.Skeleton
import proofs.«133913_j10093173146229_1_alg».proof.Proof.Gen.Kernel.Points
import proofs.«133913_j10093173146229_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1: the arrays as found; after the body each input block in place and the output block
    at the payload of the three input blocks; nothing owed, nothing kept between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-! ## What the input buffers hold when the body is entered -/

/-- The first input's buffer holds its block at every point: where the block index did not move the buffer still
    holds the previous point's block, which is the same one. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The second input's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The third input's buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body on whole buffers -/

set_option maxHeartbeats 1000000 in
/-- The body on four whole buffers, the three inputs reading `x0`, `x1`, `x2` and the output at any contents: it
    reads each input whole, and its one store goes through the rectangle that is the whole output buffer, so the
    inputs are left as they were and the output reads exactly the payload of the three. -/
theorem sound_kernel1 (c : Dev nD) (E : Set ℕ) (i : grid1.Coords)
    (arg2 : Memref sig .tc .vmem S1024x1024 .f32) (harg2 : arg2.IsWhole)
    (arg3 : Memref sig .tc .vmem S512x1024 .f32) (harg3 : arg3.IsWhole)
    (arg4 : Memref sig .tc .vmem S512 .f32) (harg4 : arg4.IsWhole)
    (arg5 : Memref sig .tc .vmem S1024x512 .bf16) (harg5 : arg5.IsWhole)
    (x0 : Vec F S1024x1024 .f32) (x1 : Vec F S512x1024 .f32) (x2 : Vec F S512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k1_pay1 x0 x1 x2)) -∗ K ⟨⟩))
      ⊢ wp frame (wpE (defs₀ (F := F)) Variants.none c none) E
          (cc1__rf_map_kernel i arg2 harg2 arg3 harg3 arg4 harg4 arg5 harg5) K := by
  simp only [cc1__rf_map_kernel_eq_skeleton]; unfold cc1__rf_map_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz2 : (![0, 0] : Fin 2 → Nat) = fun _ => 0 := funext fun a => by fin_cases a <;> rfl
  have hz1 : (![0] : Fin 1 → Nat) = fun _ => 0 := funext fun a => by fin_cases a; rfl
  rw [WholeBuffer.store_whole arg5.view f3 hz2 inb_S1024x512_S1024x512_0_0,
    WholeBuffer.load_whole arg2.view f0 hz2 inb_S1024x1024_S1024x1024_0_0 rfl,
    WholeBuffer.load_whole arg3.view f1 hz2 inb_S512x1024_S512x1024_0_0 rfl,
    WholeBuffer.load_whole arg4.view f2 hz1 inb_S512_S512_0 rfl]

/-! ## The body obligation, at a generic point -/

/-- What the body is handed at point `t`: the region's invariant, what the core owes, and each window's current
    buffer, the inputs' at their blocks and the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back: the same invariant and debt, and each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the whole-buffer triple applies; the invariant
    and the debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1 at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Mm2.lean ====
/-
  Region 2 of the program: the product of the two feature matrices, one grid point per triple (block of 1024 rows,
  block of 1024 columns, half of the 2048 features). The body keeps a running block in a scratch buffer between
  points: at the first half it resets it to zero and adds that half's product; at the second half it adds the other
  half's product and copies the block out. Stated at the contents `V` the region finds in the core's buffers.
-/
import proofs.«133913_j10093173146229_1_alg».proof.Proof.Gen.Kernel.Launch
import proofs.«133913_j10093173146229_1_alg».proof.Proof.Gen.Kernel.Skeleton
import proofs.«133913_j10093173146229_1_alg».proof.Proof.Gen.Kernel.Points
import proofs.«133913_j10093173146229_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch buffer the kernel keeps its running block in, whole. -/
abbrev scM2 : Memref sig .tc .vmem S1024x1024 .f32 := Memref.whole cc2_scratch0

/-- THE RUNNING BLOCK: what the scratch holds after the body at position `n`. At an even position (first half of the
    features) the zero block plus that point's product; at an odd one what the position before left plus this point's. -/
def accAt2 (c : Dev nD) : (n : ℕ) → n < cfg2.N → Vec F S1024x1024 .f32
  | 0, hn => k2_pay2 (k2_pay1 (F := F)) (iblk2 V c 0 ⟨0, hn⟩) (iblk2 V c 1 ⟨0, hn⟩)
  | n + 1, hn =>
    if (n + 1) % 2 = 0 then k2_pay2 (k2_pay1 (F := F)) (iblk2 V c 0 ⟨n + 1, hn⟩) (iblk2 V c 1 ⟨n + 1, hn⟩)
    else k2_pay2 (accAt2 c n (Nat.lt_of_succ_lt hn)) (iblk2 V c 0 ⟨n + 1, hn⟩) (iblk2 V c 1 ⟨n + 1, hn⟩)

/-- At a point of the first half: the zero block plus the point's product. -/
theorem accAt2_even (c : Dev nD) (t : Fin cfg2.N) (h : t.val % 2 = 0) :
    accAt2 V c t.val t.isLt = k2_pay2 (k2_pay1 (F := F)) (iblk2 V c 0 t) (iblk2 V c 1 t) := by
  obtain ⟨n, hn⟩ := t
  cases n with
  | zero => rfl
  | succ n => exact if_pos h

/-- At a point of the second half: what the point before left plus the point's product. -/
theorem accAt2_odd (c : Dev nD) (t : Fin cfg2.N) (h : t.val % 2 = 1) :
    accAt2 V c t.val t.isLt
      = k2_pay2 (accAt2 V c (t.val - 1) (Nat.lt_of_le_of_lt (Nat.sub_le _ _) t.isLt)) (iblk2 V c 0 t) (iblk2 V c 1 t) := by
  obtain ⟨n, hn⟩ := t
  cases n with
  | zero => exact absurd h (by dsimp only; omega)
  | succ n => exact if_neg (by dsimp only at h; omega)

/-- The region's invariant before position `n`: before the first point what the launch hands over (every scoped buffer
    that is no staging buffer of this call at some contents, the generator register at some state); afterwards the same
    with the scratch at the running block the position before left. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn)
      ∗ Pipeline.scopedRestBut (Ix := Unit) (Name := ℕ) (U := UR sig nD τ) (Lvl := ℕ) (Val := Elt F) spec2 c [cc2_scratch0]) ∗ (∃ r, prngReg c r))

/-- The proof data of region 2: the arrays as found; after the body each input block in place and the output block at
    the running block (read only at the second-half points, where the body copies it out and the block is written back;
    at the first-half points the output window is idle and keeps what it held); the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

/-! ## The body's two conditions, decided over the grid -/

/-- The first condition: the point is in the first half of the features. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

/-- The second condition: the point is in the second half. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-- The two input windows are read at every point. -/
theorem live2_0 : ∀ t : Fin cfg2.N, cfg2.idle 0 (grid2.coords t) = false := by decide +kernel
theorem live2_1 : ∀ t : Fin cfg2.N, cfg2.idle 1 (grid2.coords t) = false := by decide +kernel
/-- The output window is left alone at the first-half points, and not written back there; -/
theorem idle2_2_even : ∀ t : Fin cfg2.N, t.val % 2 = 0 → cfg2.idle 2 (grid2.coords t) = true := by decide +kernel
theorem noflush2_2_even : ∀ t : Fin cfg2.N, t.val % 2 = 0 → (cfg2.win 2).flush t = false := by decide +kernel
/-- and stored into at the second-half points. -/
theorem live2_2_odd : ∀ t : Fin cfg2.N, t.val % 2 = 1 → cfg2.idle 2 (grid2.coords t) = false := by decide +kernel

/-- The offsets of the whole-block rectangle are zero. -/
theorem mm2_zero_off : (![0, 0] : Fin S1024x1024.rank → Nat) = fun _ => 0 := by
  funext a; fin_cases a <;> rfl

set_option maxHeartbeats 1000000 in
theorem run2_even (c : Dev nD) (i : grid2.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : cond2_0 i) (hc1 : ¬cond2_1 i) (x0 : Vec F S1024x1024 .bf16) (x1 : Vec F S1024x1024 .bf16) (xi : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k2_pay2 (k2_pay1 (F := F)) x0 x1)) -∗ K ⟨⟩))
      ⊢ wp frame (wpE (defs₀ (F := F)) Variants.none c none) E (cc2__matmul_bt_kernel i arg3 harg3 arg4 harg4 arg5 harg5 arg6 harg6) K := by
  simp only [cc2__matmul_bt_kernel_eq_skeleton]; unfold cc2__matmul_bt_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  -- the last store covers the block: the scratch reads its payload; the zero block stored first is what the
  -- payload's first argument was loaded as, and the two input blocks are read whole
  rw [View.read_writes_eq_canon _ _ _ (fun y => ⟨_, List.mem_cons_self, View.mem_set_unit_zero mm2_zero_off inb_S1024x1024_S1024x1024_0_0 y⟩),
    View.canon_cons_unit_zero mm2_zero_off]
  sl_unfold_run_names
  rw [View.readCov_unit_zero _ mm2_zero_off, WholeBuffer.load_whole _ _ mm2_zero_off _ hf0, WholeBuffer.load_whole _ _ mm2_zero_off _ hf1]

set_option maxHeartbeats 1000000 in
theorem run2_odd (c : Dev nD) (i : grid2.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬cond2_0 i) (hc1 : cond2_1 i) (x0 : Vec F S1024x1024 .bf16) (x1 : Vec F S1024x1024 .bf16) (xs : Vec F S1024x1024 .f32)
    (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1 ∗ owns (c : Thread nD τ) arg5 fullShare (k2_pay2 xs x0 x1)
            ∗ owns (c : Thread nD τ) arg6 fullShare (k2_pay2 xs x0 x1)) -∗ K ⟨⟩))
      ⊢ wp frame (wpE (defs₀ (F := F)) Variants.none c none) E (cc2__matmul_bt_kernel i arg3 harg3 arg4 harg4 arg5 harg5 arg6 harg6) K := by
  simp only [cc2__matmul_bt_kernel_eq_skeleton]; unfold cc2__matmul_bt_kernel_skel
  unfold owns
  iintro ⟨⟨%f0, %hf0, H0⟩, ⟨%f1, %hf1, H1⟩, ⟨%d5, %f5, -, H2⟩, ⟨%f6, %hf6, HS⟩, Hk⟩
  obtain rfl := harg3.eq_unread hf0; obtain rfl := harg4.eq_unread hf1; obtain rfl := harg6.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    -- the output block holds what was loaded from the scratch after the covering store: that store's payload
    sl_unfold_run_names
    rw [WholeBuffer.store_whole _ _ mm2_zero_off, View.readCov_unit_zero _ mm2_zero_off, WholeBuffer.load_whole _ _ mm2_zero_off _ hf6,
      WholeBuffer.load_whole _ _ mm2_zero_off _ hf0, WholeBuffer.load_whole _ _ mm2_zero_off _ hf1]
  iexists _; isplitr
  swap; · iexact HS
  ipureintro
  -- one covering store into the scratch: it reads the payload, over what the scratch held and the two blocks
  sl_unfold_run_names
  rw [WholeBuffer.store_whole _ _ mm2_zero_off, WholeBuffer.load_whole _ _ mm2_zero_off _ hf6,
    WholeBuffer.load_whole _ _ mm2_zero_off _ hf0, WholeBuffer.load_whole _ _ mm2_zero_off _ hf1]

/-! ## The input windows hold their blocks -/

/-- An input window's current buffer holds the array's block at every point, fetched there or not: the body leaves it
    in place, and where the pipeline does not fetch, the block index has not moved. -/
theorem before2_0 (c : Dev nD) (t : Fin cfg2.N) (d) : (dat2 V c).before 0 t d = iblk2 V c 0 t := by
  have hk : ∀ u, (cfg2.win 0).cut (cfg2.grid.coords u) ((dat2 V c).after 0 u) = (dat2 V c).blockOf 0 u := fun u => by
    rw [after2_0]; unfold Dat.blockOf iblk2; rw [A_eq2]; try rfl
  rw [(dat2 V c).before_in_eq_fetched 0 rfl (fun _ => rfl) (fun _ _ _ => rfl) hk t d]
  unfold Dat.fetched Dat.blockOf iblk2; rw [A_eq2]; try rfl

theorem before2_1 (c : Dev nD) (t : Fin cfg2.N) (d) : (dat2 V c).before 1 t d = iblk2 V c 1 t := by
  have hk : ∀ u, (cfg2.win 1).cut (cfg2.grid.coords u) ((dat2 V c).after 1 u) = (dat2 V c).blockOf 1 u := fun u => by
    rw [after2_1]; unfold Dat.blockOf iblk2; rw [A_eq2]; try rfl
  rw [(dat2 V c).before_in_eq_fetched 1 rfl (fun _ => rfl) (fun _ _ _ => rfl) hk t d]
  unfold Dat.fetched Dat.blockOf iblk2; rw [A_eq2]; try rfl

/-! ## The invariant, the scratch set apart -/

/-- What the launch hands over, with the scratch buffer taken out of the scoped rest as a memref owned at some
    contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA
  rw [Pipeline.scopedRest_split_of_list spec2 c [cc2_scratch0] (by decide) (by decide)]
  simp only [bigSepL_singleton, scM2, owns_whole]; try rfl

theorem PhiS2_zero (c : Dev nD) (n : ℕ) (h : n ≤ cfg2.N) (hz : n = 0) : PhiS2 V c n h = Pipeline.ΦA spec2 c := by
  subst hz; rfl

/-- Before a point that is not the first: the scratch at the running block the point before left. -/
theorem PhiS2_pos (c : Dev nD) (n : ℕ) (h : n ≤ cfg2.N) (hz : n ≠ 0) :
    PhiS2 V c n h = iprop(iprop(owns (c : Thread nD τ) scM2 fullShare (accAt2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-! ## The body at a point -/

/-- Each window's current staging memref at a point, as the pipeline passes it to the body. -/
abbrev ms2_0 (t : Fin cfg2.N) : Memref sig .tc .vmem S1024x1024 .bf16 := win2_0.stage (cfg2.slots t 0)
abbrev ms2_1 (t : Fin cfg2.N) : Memref sig .tc .vmem S1024x1024 .bf16 := win2_1.stage (cfg2.slots t 1)
abbrev ms2_2 (t : Fin cfg2.N) : Memref sig .tc .vmem S1024x1024 .f32 := win2_2.stage (cfg2.slots t 2)

set_option maxHeartbeats 4000000 in
/-- The body at any point. The input buffers hold their blocks. At a first-half point the body resets the scratch, adds
    the point's product and leaves the output buffer as it found it; at a second-half point it adds the point's product
    to what the point before left in the scratch and copies the sum into the output buffer. -/
theorem sound_body2 (c : Dev nD) (t : Fin cfg2.N) :
    iprop((dat2 V c).Φ t.castSucc ∗ (dat2 V c).owesAt () t.castSucc
        ∗ (∃ d, owns (c : Thread nD τ) (ms2_0 t) fullShare ((dat2 V c).before 0 t d))
        ∗ (∃ d, owns (c : Thread nD τ) (ms2_1 t) fullShare ((dat2 V c).before 1 t d))
        ∗ (∃ d, owns (c : Thread nD τ) (ms2_2 t) fullShare ((dat2 V c).before 2 t d)))
      ⊢ wp frame (wpE (defs₀ (F := F)) Variants.none c none) Set.univ (bodyAt2 t) (fun _ =>
          iprop((dat2 V c).Φ t.succ ∗ (dat2 V c).owesAt () t.succ
            ∗ (dat2 V c).leavesExact 0 t ∗ (dat2 V c).leavesExact 1 t ∗ (dat2 V c).leavesExact 2 t)) := by
  unfold bodyAt2
  simp only [before2_0, before2_1]
  rw [show (dat2 V c).owesAt () t.succ = (dat2 V c).owesAt () t.castSucc from rfl]
  rw [show (dat2 V c).Φ t.succ = PhiS2 V c (t.val + 1) t.isLt from rfl]
  rw [show PhiS2 V c (t.val + 1) t.isLt = iprop(iprop(owns (c : Thread nD τ) scM2 fullShare (accAt2 V c t.val t.isLt)
      ∗ Pipeline.scopedRestBut (Ix := Unit) (Name := ℕ) (U := UR sig nD τ) (Lvl := ℕ) (Val := Elt F) spec2 c [cc2_scratch0]) ∗ (∃ r, prngReg c r)) from rfl]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  have hN : t.val < 64 := lt_of_lt_of_eq t.isLt (show cfg2.N = 64 from N_2)
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idle2_2_even t h0) (noflush2_2_even t h0)]
    rw [accAt2_even V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩⟩
      iapply (run2_even c (grid2.coords t) _ _ _ _ _ _ _ _ hc0 hc1 (iblk2 V c 0 t) (iblk2 V c 1 t) ((dat2 V c).before 2 t d2) Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, HR⟩, Hg⟩, Ho, ⟨%d0, H0⟩, ⟨%d1, H1⟩, ⟨%d2, H2⟩⟩
      iapply (run2_even c (grid2.coords t) _ _ _ _ _ _ _ _ hc0 hc1 (iblk2 V c 0 t) (iblk2 V c 1 t) ((dat2 V c).before 2 t d2) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have h1 : t.val % 2 = 1 := by omega
    have hz : t.val ≠ 0 := by omega
    have hc0 : ¬cond2_0 (grid2.coords t) := fun h => h0 ((hcond2_0 t).mp h)
    have hc1 : cond2_1 (grid2.coords t) := (hcond2_1 t).mpr h1
    rw [show (dat2 V c).leavesExact 2 t = owns (c : Thread nD τ) (ms2_2 t) fullShare ((dat2 V c).after 2 t) from by
      unfold Dat.leavesExact; rw [live2_2_odd t h1], after2_2]
    rw [accAt2_odd V c t h1]
    rw [PhiS2_castSucc V c t, PhiS2_pos V c _ _ hz]
    iintro ⟨⟨⟨HS, HR⟩, Hg⟩, Ho, ⟨%d0, H0⟩, ⟨%d1, H1⟩, ⟨%d2, H2⟩⟩
    iapply (run2_odd c (grid2.coords t) _ _ _ _ _ _ _ _ hc0 hc1 (iblk2 V c 0 t) (iblk2 V c 1 t) (accAt2 V c (t.val - 1) (Nat.lt_of_le_of_lt (Nat.sub_le _ _) t.isLt)) Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The body obligation of region 2 at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives back what the launch handed over: the running block's contents forgotten. -/
theorem hout2 (c : Dev nD) : (dat2 V c).Φ (Fin.last cfg2.N) ⊢ (Pipeline.ΦA spec2 c : sProp 𝕄) := by
  have hN : cfg2.N ≠ 0 := by rw [show cfg2.N = 64 from N_2]; decide
  rw [show (dat2 V c).Φ (Fin.last cfg2.N) = PhiS2 V c cfg2.N (Nat.le_refl _) from rfl, PhiS2_pos V c _ _ hN, PhiA2_eq]
  iintro ⟨⟨HS, HR⟩, Hg⟩
  isplitl [HS HR]
  · isplitl [HS]
    · iexists _; iexact HS
    iexact HR
  iexact Hg

end Cert.Kernel.Fr

end
-- ==== Proof.K.Run.lean ====
/-
  The whole run of the program: one reshape on the host, the three regions in order, one reshape on the host. Between two
  items every unscoped buffer of the core is held at named contents: the launch memory, then what each item leaves
  (a host operation its result; a region its output array at what its write-backs leave, every other buffer as it was).
  The run ends with every unscoped buffer at the last of these contents, from which the frame (the four arguments are
  never written) and the result's value are read.
-/
import proofs.«133913_j10093173146229_1_alg».proof.Proof.K.Rf0
import proofs.«133913_j10093173146229_1_alg».proof.Proof.K.Rf1
import proofs.«133913_j10093173146229_1_alg».proof.Proof.K.Mm2
import Idealize.ShloMosaic.Adequacy
import Idealize.ShloMosaic.Init

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 (c : Dev nD) : Valuation τ sig (Elt F) := fun b => m (c, b)
/-- After the first host operation (the input flattened to 8192 rows). -/
def W1 (c : Dev nD) : Valuation τ sig (Elt F) := StableHlo.after hostOps0 (W0 m c)
/-- The same read at the TensorCore's references: what region 0 finds. -/
abbrev Vr1 : (c : Dev nD) → (b : Ref sig .tc) → Buf (Elt F) ((c : Thread nD τ).loc b) := fun c b => W1 m c (Proc.devRef .tc b)
/-- After region 0: its arrays at what the pipeline leaves, every other buffer as entered. -/
def W2 (c : Dev nD) : Valuation τ sig (Elt F) :=
  Pipeline.withArrays spec0 c (W1 m c) fun w => (dat0 (Vr1 m) c).arrAt w cfg0.N
/-- What region 1 finds. -/
abbrev Vr2 : (c : Dev nD) → (b : Ref sig .tc) → Buf (Elt F) ((c : Thread nD τ).loc b) := fun c b => W2 m c (Proc.devRef .tc b)
/-- After region 1. -/
def W3 (c : Dev nD) : Valuation τ sig (Elt F) :=
  Pipeline.withArrays spec1 c (W2 m c) fun w => (dat1 (Vr2 m) c).arrAt w cfg1.N
/-- What region 2 finds. -/
abbrev Vr3 : (c : Dev nD) → (b : Ref sig .tc) → Buf (Elt F) ((c : Thread nD τ).loc b) := fun c b => W3 m c (Proc.devRef .tc b)
/-- After region 2. -/
def W4 (c : Dev nD) : Valuation τ sig (Elt F) :=
  Pipeline.withArrays spec2 c (W3 m c) fun w => (dat2 (Vr3 m) c).arrAt w cfg2.N
/-- After the last host operation (the result unflattened). -/
def W5 (c : Dev nD) : Valuation τ sig (Elt F) := StableHlo.after hostOps3 (W4 m c)

/-- What the last host operation finds. -/
abbrev Vr4 : (c : Dev nD) → (b : Ref sig .tc) → Buf (Elt F) ((c : Thread nD τ).loc b) := fun c b => W4 m c (Proc.devRef .tc b)

/-! ## Reading the contents through the items

A region leaves each of its arrays at what its write-backs leave and every other buffer as it found it; a host
operation changes only the buffer it writes. -/

theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)

theorem W4_arr (c : Dev nD) (w : Fin cfg2.W) :
    W4 m c (Proc.devRef .tc (Pipeline.arrRef spec2 w)) = (dat2 (Vr3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
theorem hF2 (c : Dev nD) (w : Fin cfg2.W) : (dat2 (Vr3 m) c).arrAt w cfg2.N = Vr4 m c (Pipeline.arrRef spec2 w) :=
  (W4_arr m c w).symm
theorem hrest2 (c : Dev nD) : ∀ b, b ∉ Finset.univ.image (Pipeline.arrRef spec2) → Vr4 m c b = Vr3 m c b :=
  fun b hb => W4_of_ne m c b fun w e => hb (Finset.mem_image.mpr ⟨w, Finset.mem_univ _, e⟩)

/-- Neither host operation allocates a buffer. -/
theorem host0_fresh : (hostOps0 : List (HloOp τ sig (Elt F))).Forall fun op => op.fresh = ∅ := by
  simp only [List.Forall]; repeat' constructor
theorem host3_fresh : (hostOps3 : List (HloOp τ sig (Elt F))).Forall fun op => op.fresh = ∅ := by
  simp only [List.Forall]; repeat' constructor
/-- The first host operation writes the flattened input only, the last one the unflattened result only. -/
theorem host0_writes : (hostOps0 : List (HloOp τ sig (Elt F))).Forall fun op => op.writes ⊆ (([main_v0] : List (Ref sig .tc)).map (Proc.devRef (τ := τ) .tc)).toFinset := by
  simp only [List.Forall, StableHlo.reshape_writes, Finset.singleton_subset_iff, List.mem_toFinset]
  exact List.mem_map_of_mem (by decide)
theorem host3_writes : (hostOps3 : List (HloOp τ sig (Elt F))).Forall fun op => op.writes ⊆ (([main_v4] : List (Ref sig .tc)).map (Proc.devRef (τ := τ) .tc)).toFinset := by
  simp only [List.Forall, StableHlo.reshape_writes, Finset.singleton_subset_iff, List.mem_toFinset]
  exact List.mem_map_of_mem (by decide)
theorem W1_of (c : Dev nD) (r : Ref sig .tc) (h : r ∉ ([main_v0] : List (Ref sig .tc))) : W1 m c (Proc.devRef .tc r) = W0 m c (Proc.devRef .tc r) := by
  unfold W1; exact StableHlo.after_of_writes_sub hostOps0 _ host0_writes h
theorem W5_of (c : Dev nD) (r : Ref sig .tc) (h : r ∉ ([main_v4] : List (Ref sig .tc))) : W5 m c (Proc.devRef .tc r) = W4 m c (Proc.devRef .tc r) := by
  unfold W5; exact StableHlo.after_of_writes_sub hostOps3 _ host3_writes h

/-! ## The arguments are never written

No host operation writes an argument; a region either does not touch it or reads it through an input window, whose
array the pipeline leaves as found. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 0).trans (((dat0 (Vr1 m) c).arrAt_in 0 rfl _).trans (A_eq0 (Vr1 m) c 0))
    _ = W0 m c (Proc.devRef .tc main_arg1) := W1_of m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_of_ne m c main_arg2 (by decide)
    _ = W2 m c (Proc.devRef .tc main_arg2) := (W3_arr m c 2).trans (((dat1 (Vr2 m) c).arrAt_in 2 rfl _).trans (A_eq1 (Vr2 m) c 2))
    _ = W1 m c (Proc.devRef .tc main_arg2) := (W2_arr m c 2).trans (((dat0 (Vr1 m) c).arrAt_in 2 rfl _).trans (A_eq0 (Vr1 m) c 2))
    _ = W0 m c (Proc.devRef .tc main_arg2) := W1_of m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := (W3_arr m c 1).trans (((dat1 (Vr2 m) c).arrAt_in 1 rfl _).trans (A_eq1 (Vr2 m) c 1))
    _ = W1 m c (Proc.devRef .tc main_arg3) := (W2_arr m c 1).trans (((dat0 (Vr1 m) c).arrAt_in 1 rfl _).trans (A_eq0 (Vr1 m) c 1))
    _ = W0 m c (Proc.devRef .tc main_arg3) := W1_of m c main_arg3 (by decide)
    _ = m ((c : Thread nD τ).loc main_arg3) := rfl

/-- An unscoped TensorCore reference is among those the run ends holding. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data of the three regions and what rides beside the buffers -/

/-- No region has a prefetched table. -/
abbrev adm : (p : Fin 3) → (pcfgs (F := F) p).Adm := fun p => (cfgs p).toPCfg_adm
/-- Each region's proof data at the contents the region finds. -/
def pdats : (p : Fin 3) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
  | ⟨2, _⟩ => fun c => dat2 (Vr3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)
/-- A line of host operations as an item: from the unscoped buffers at `W` to the same buffers at what the line leaves. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as items -/

set_option backward.isDefEq.respectTransparency.types false in
/-- Region 0 between its two boundaries: entered with every unscoped buffer at `W1`, left with them at `W2`.
    On entry the region's arrays are split off the unscoped buffers and the rest bypasses the region; on exit the
    arrays, at what the write-backs leave, are joined with the bypassing rest. The generator register goes into the
    region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between its two boundaries: entered with every unscoped buffer at `W2`, left with them at `W3`.
    On entry the region's arrays are split off the unscoped buffers and the rest bypasses the region; on exit the
    arrays, at what the write-backs leave, are joined with the bypassing rest. The generator register goes into the
    region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between its two boundaries: entered with every unscoped buffer at `W3`, left with them at `W4`.
    On entry the region's arrays are split off the unscoped buffers and the rest bypasses the region; on exit the
    arrays, at what the write-backs leave, are joined with the bypassing rest. The generator register goes into the
    region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (Vr3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr3 m) c)
    unfold Pipeline.ΦA
    iintro ⟨Hp, -, Hr⟩
    isplitl [Hr]; · iexact Hr
    iexact Hp
  hout c := by
    rw [Pipeline.ownSems0_none]
    refine BIBase.Entails.trans (hout2 (Vr3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr3 m c) (Vr4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's five items in order. -/
abbrev segs : List (Pipeline.Seg (pcfgs (F := F)) adm (pdats m) () defs₀ 𝒱₀ L lv) :=
  [ .host (hseg hostOps0 hostOps0_sub host0_fresh (W0 m)),
    .region (reg0 m),
    .region (reg1 m),
    .region (reg2 m),
    .host (hseg hostOps3 hostOps3_sub host3_fresh (W4 m)) ]
/-- The program is the run of its items. -/
theorem main_run (c : Dev nD) : main (F := F) c = Pipeline.Seg.run (segs m) := (main_chain c).trans (by chain_rfl)

set_option backward.isDefEq.respectTransparency.types false in
/-- From any memory with zero counters every weakly fair execution of the program terminates, nothing faulting, with
    every unscoped buffer of every core at the last contents `W5`. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (StableHlo.after hostOps3 (W4 m c)) ∗ R c)
        ⊢ iprop(iprop(StableHlo.held (c : Thread nD τ) (Pipeline.ucRefs τ sig) (W5 m c) ∗ ∃ r, prngReg c r) ∗ ∃ W, owes (c : Thread nD τ) (0 : CellTallies nD τ sig Unit) W)
      unfold W5
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the program runs to the end and its four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

end Cert.Kernel.Fr

end
-- ==== Proof.KI.Rf0.lean ====
/-
  Region 0 of the program: the feature kernel over the 4096 weight rows, one grid point per pair (block of 1024 rows,
  block of 512 features). At a point the body reads its three input blocks whole, and leaves in the output block
  exactly the payload computed from them, whatever the block held before. Stated at the contents `V` the region
  finds in the core's buffers.
-/
import proofs.«133913_j10093173146229_1_alg».proof.Proof.Gen.KernelIdeal.Launch
import proofs.«133913_j10093173146229_1_alg».proof.Proof.Gen.KernelIdeal.Skeleton
import proofs.«133913_j10093173146229_1_alg».proof.Proof.Gen.KernelIdeal.Points
import proofs.«133913_j10093173146229_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0: the arrays as found; after the body each input block in place and the output block
    at the payload of the three input blocks; nothing owed, nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## What the input buffers hold when the body is entered -/

/-- The first input's buffer holds its block at every point: where the block index did not move the buffer still
    holds the previous point's block, which is the same one. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The second input's buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The third input's buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body on whole buffers -/

set_option maxHeartbeats 1000000 in
/-- The body on four whole buffers, the three inputs reading `x0`, `x1`, `x2` and the output at any contents: it
    reads each input whole, and its one store goes through the rectangle that is the whole output buffer, so the
    inputs are left as they were and the output reads exactly the payload of the three. -/
theorem sound_kernel0 (c : Dev nD) (E : Set ℕ) (i : grid0.Coords)
    (arg2 : Memref sig .tc .vmem S1024x1024 .f32) (harg2 : arg2.IsWhole)
    (arg3 : Memref sig .tc .vmem S512x1024 .f32) (harg3 : arg3.IsWhole)
    (arg4 : Memref sig .tc .vmem S512 .f32) (harg4 : arg4.IsWhole)
    (arg5 : Memref sig .tc .vmem S1024x512 .bf16) (harg5 : arg5.IsWhole)
    (x0 : Vec F S1024x1024 .f32) (x1 : Vec F S512x1024 .f32) (x2 : Vec F S512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k0_pay1 x0 x1 x2)) -∗ K ⟨⟩))
      ⊢ wp frame (wpE (defs₀ (F := F)) Variants.none c none) E
          (cc0__rf_map_kernel i arg2 harg2 arg3 harg3 arg4 harg4 arg5 harg5) K := by
  simp only [cc0__rf_map_kernel_eq_skeleton]; unfold cc0__rf_map_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz2 : (![0, 0] : Fin 2 → Nat) = fun _ => 0 := funext fun a => by fin_cases a <;> rfl
  have hz1 : (![0] : Fin 1 → Nat) = fun _ => 0 := funext fun a => by fin_cases a; rfl
  rw [WholeBuffer.store_whole arg5.view f3 hz2 inb_S1024x512_S1024x512_0_0,
    WholeBuffer.load_whole arg2.view f0 hz2 inb_S1024x1024_S1024x1024_0_0 rfl,
    WholeBuffer.load_whole arg3.view f1 hz2 inb_S512x1024_S512x1024_0_0 rfl,
    WholeBuffer.load_whole arg4.view f2 hz1 inb_S512_S512_0 rfl]

/-! ## The body obligation, at a generic point -/

/-- What the body is handed at point `t`: the region's invariant, what the core owes, and each window's current
    buffer, the inputs' at their blocks and the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the whole-buffer triple applies; the invariant
    and the debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Rf1.lean ====
/-
  Region 1 of the program: the feature kernel over the 8192 flattened input rows, one grid point per pair (block of 1024 rows,
  block of 512 features). At a point the body reads its three input blocks whole, and leaves in the output block
  exactly the payload computed from them, whatever the block held before. Stated at the contents `V` the region
  finds in the core's buffers.
-/
import proofs.«133913_j10093173146229_1_alg».proof.Proof.Gen.KernelIdeal.Launch
import proofs.«133913_j10093173146229_1_alg».proof.Proof.Gen.KernelIdeal.Skeleton
import proofs.«133913_j10093173146229_1_alg».proof.Proof.Gen.KernelIdeal.Points
import proofs.«133913_j10093173146229_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1: the arrays as found; after the body each input block in place and the output block
    at the payload of the three input blocks; nothing owed, nothing kept between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-! ## What the input buffers hold when the body is entered -/

/-- The first input's buffer holds its block at every point: where the block index did not move the buffer still
    holds the previous point's block, which is the same one. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The second input's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The third input's buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body on whole buffers -/

set_option maxHeartbeats 1000000 in
/-- The body on four whole buffers, the three inputs reading `x0`, `x1`, `x2` and the output at any contents: it
    reads each input whole, and its one store goes through the rectangle that is the whole output buffer, so the
    inputs are left as they were and the output reads exactly the payload of the three. -/
theorem sound_kernel1 (c : Dev nD) (E : Set ℕ) (i : grid1.Coords)
    (arg2 : Memref sig .tc .vmem S1024x1024 .f32) (harg2 : arg2.IsWhole)
    (arg3 : Memref sig .tc .vmem S512x1024 .f32) (harg3 : arg3.IsWhole)
    (arg4 : Memref sig .tc .vmem S512 .f32) (harg4 : arg4.IsWhole)
    (arg5 : Memref sig .tc .vmem S1024x512 .bf16) (harg5 : arg5.IsWhole)
    (x0 : Vec F S1024x1024 .f32) (x1 : Vec F S512x1024 .f32) (x2 : Vec F S512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k1_pay1 x0 x1 x2)) -∗ K ⟨⟩))
      ⊢ wp frame (wpE (defs₀ (F := F)) Variants.none c none) E
          (cc1__rf_map_kernel i arg2 harg2 arg3 harg3 arg4 harg4 arg5 harg5) K := by
  simp only [cc1__rf_map_kernel_eq_skeleton]; unfold cc1__rf_map_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz2 : (![0, 0] : Fin 2 → Nat) = fun _ => 0 := funext fun a => by fin_cases a <;> rfl
  have hz1 : (![0] : Fin 1 → Nat) = fun _ => 0 := funext fun a => by fin_cases a; rfl
  rw [WholeBuffer.store_whole arg5.view f3 hz2 inb_S1024x512_S1024x512_0_0,
    WholeBuffer.load_whole arg2.view f0 hz2 inb_S1024x1024_S1024x1024_0_0 rfl,
    WholeBuffer.load_whole arg3.view f1 hz2 inb_S512x1024_S512x1024_0_0 rfl,
    WholeBuffer.load_whole arg4.view f2 hz1 inb_S512_S512_0 rfl]

/-! ## The body obligation, at a generic point -/

/-- What the body is handed at point `t`: the region's invariant, what the core owes, and each window's current
    buffer, the inputs' at their blocks and the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back: the same invariant and debt, and each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the whole-buffer triple applies; the invariant
    and the debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1 at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Mm2.lean ====
/-
  Region 2 of the program: the product of the two feature matrices, one grid point per triple (block of 1024 rows,
  block of 1024 columns, half of the 2048 features). The body keeps a running block in a scratch buffer between
  points: at the first half it resets it to zero and adds that half's product; at the second half it adds the other
  half's product and copies the block out. Stated at the contents `V` the region finds in the core's buffers.
-/
import proofs.«133913_j10093173146229_1_alg».proof.Proof.Gen.KernelIdeal.Launch
import proofs.«133913_j10093173146229_1_alg».proof.Proof.Gen.KernelIdeal.Skeleton
import proofs.«133913_j10093173146229_1_alg».proof.Proof.Gen.KernelIdeal.Points
import proofs.«133913_j10093173146229_1_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch buffer the kernel keeps its running block in, whole. -/
abbrev scM2 : Memref sig .tc .vmem S1024x1024 .f32 := Memref.whole cc2_scratch0

/-- THE RUNNING BLOCK: what the scratch holds after the body at position `n`. At an even position (first half of the
    features) the zero block plus that point's product; at an odd one what the position before left plus this point's. -/
def accAt2 (c : Dev nD) : (n : ℕ) → n < cfg2.N → Vec F S1024x1024 .f32
  | 0, hn => k2_pay2 (k2_pay1 (F := F)) (iblk2 V c 0 ⟨0, hn⟩) (iblk2 V c 1 ⟨0, hn⟩)
  | n + 1, hn =>
    if (n + 1) % 2 = 0 then k2_pay2 (k2_pay1 (F := F)) (iblk2 V c 0 ⟨n + 1, hn⟩) (iblk2 V c 1 ⟨n + 1, hn⟩)
    else k2_pay2 (accAt2 c n (Nat.lt_of_succ_lt hn)) (iblk2 V c 0 ⟨n + 1, hn⟩) (iblk2 V c 1 ⟨n + 1, hn⟩)

/-- At a point of the first half: the zero block plus the point's product. -/
theorem accAt2_even (c : Dev nD) (t : Fin cfg2.N) (h : t.val % 2 = 0) :
    accAt2 V c t.val t.isLt = k2_pay2 (k2_pay1 (F := F)) (iblk2 V c 0 t) (iblk2 V c 1 t) := by
  obtain ⟨n, hn⟩ := t
  cases n with
  | zero => rfl
  | succ n => exact if_pos h

/-- At a point of the second half: what the point before left plus the point's product. -/
theorem accAt2_odd (c : Dev nD) (t : Fin cfg2.N) (h : t.val % 2 = 1) :
    accAt2 V c t.val t.isLt
      = k2_pay2 (accAt2 V c (t.val - 1) (Nat.lt_of_le_of_lt (Nat.sub_le _ _) t.isLt)) (iblk2 V c 0 t) (iblk2 V c 1 t) := by
  obtain ⟨n, hn⟩ := t
  cases n with
  | zero => exact absurd h (by dsimp only; omega)
  | succ n => exact if_neg (by dsimp only at h; omega)

/-- The region's invariant before position `n`: before the first point what the launch hands over (every scoped buffer
    that is no staging buffer of this call at some contents, the generator register at some state); afterwards the same
    with the scratch at the running block the position before left. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn)
      ∗ Pipeline.scopedRestBut (Ix := Unit) (Name := ℕ) (U := UR sig nD τ) (Lvl := ℕ) (Val := Elt F) spec2 c [cc2_scratch0]) ∗ (∃ r, prngReg c r))

/-- The proof data of region 2: the arrays as found; after the body each input block in place and the output block at
    the running block (read only at the second-half points, where the body copies it out and the block is written back;
    at the first-half points the output window is idle and keeps what it held); the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

/-! ## The body's two conditions, decided over the grid -/

/-- The first condition: the point is in the first half of the features. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

/-- The second condition: the point is in the second half. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-- The two input windows are read at every point. -/
theorem live2_0 : ∀ t : Fin cfg2.N, cfg2.idle 0 (grid2.coords t) = false := by decide +kernel
theorem live2_1 : ∀ t : Fin cfg2.N, cfg2.idle 1 (grid2.coords t) = false := by decide +kernel
/-- The output window is left alone at the first-half points, and not written back there; -/
theorem idle2_2_even : ∀ t : Fin cfg2.N, t.val % 2 = 0 → cfg2.idle 2 (grid2.coords t) = true := by decide +kernel
theorem noflush2_2_even : ∀ t : Fin cfg2.N, t.val % 2 = 0 → (cfg2.win 2).flush t = false := by decide +kernel
/-- and stored into at the second-half points. -/
theorem live2_2_odd : ∀ t : Fin cfg2.N, t.val % 2 = 1 → cfg2.idle 2 (grid2.coords t) = false := by decide +kernel

/-- The offsets of the whole-block rectangle are zero. -/
theorem mm2_zero_off : (![0, 0] : Fin S1024x1024.rank → Nat) = fun _ => 0 := by
  funext a; fin_cases a <;> rfl

set_option maxHeartbeats 1000000 in
theorem run2_even (c : Dev nD) (i : grid2.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : cond2_0 i) (hc1 : ¬cond2_1 i) (x0 : Vec F S1024x1024 .bf16) (x1 : Vec F S1024x1024 .bf16) (xi : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k2_pay2 (k2_pay1 (F := F)) x0 x1)) -∗ K ⟨⟩))
      ⊢ wp frame (wpE (defs₀ (F := F)) Variants.none c none) E (cc2__matmul_bt_kernel i arg3 harg3 arg4 harg4 arg5 harg5 arg6 harg6) K := by
  simp only [cc2__matmul_bt_kernel_eq_skeleton]; unfold cc2__matmul_bt_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  -- the last store covers the block: the scratch reads its payload; the zero block stored first is what the
  -- payload's first argument was loaded as, and the two input blocks are read whole
  rw [View.read_writes_eq_canon _ _ _ (fun y => ⟨_, List.mem_cons_self, View.mem_set_unit_zero mm2_zero_off inb_S1024x1024_S1024x1024_0_0 y⟩),
    View.canon_cons_unit_zero mm2_zero_off]
  sl_unfold_run_names
  rw [View.readCov_unit_zero _ mm2_zero_off, WholeBuffer.load_whole _ _ mm2_zero_off _ hf0, WholeBuffer.load_whole _ _ mm2_zero_off _ hf1]

set_option maxHeartbeats 1000000 in
theorem run2_odd (c : Dev nD) (i : grid2.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬cond2_0 i) (hc1 : cond2_1 i) (x0 : Vec F S1024x1024 .bf16) (x1 : Vec F S1024x1024 .bf16) (xs : Vec F S1024x1024 .f32)
    (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1 ∗ owns (c : Thread nD τ) arg5 fullShare (k2_pay2 xs x0 x1)
            ∗ owns (c : Thread nD τ) arg6 fullShare (k2_pay2 xs x0 x1)) -∗ K ⟨⟩))
      ⊢ wp frame (wpE (defs₀ (F := F)) Variants.none c none) E (cc2__matmul_bt_kernel i arg3 harg3 arg4 harg4 arg5 harg5 arg6 harg6) K := by
  simp only [cc2__matmul_bt_kernel_eq_skeleton]; unfold cc2__matmul_bt_kernel_skel
  unfold owns
  iintro ⟨⟨%f0, %hf0, H0⟩, ⟨%f1, %hf1, H1⟩, ⟨%d5, %f5, -, H2⟩, ⟨%f6, %hf6, HS⟩, Hk⟩
  obtain rfl := harg3.eq_unread hf0; obtain rfl := harg4.eq_unread hf1; obtain rfl := harg6.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    -- the output block holds what was loaded from the scratch after the covering store: that store's payload
    sl_unfold_run_names
    rw [WholeBuffer.store_whole _ _ mm2_zero_off, View.readCov_unit_zero _ mm2_zero_off, WholeBuffer.load_whole _ _ mm2_zero_off _ hf6,
      WholeBuffer.load_whole _ _ mm2_zero_off _ hf0, WholeBuffer.load_whole _ _ mm2_zero_off _ hf1]
  iexists _; isplitr
  swap; · iexact HS
  ipureintro
  -- one covering store into the scratch: it reads the payload, over what the scratch held and the two blocks
  sl_unfold_run_names
  rw [WholeBuffer.store_whole _ _ mm2_zero_off, WholeBuffer.load_whole _ _ mm2_zero_off _ hf6,
    WholeBuffer.load_whole _ _ mm2_zero_off _ hf0, WholeBuffer.load_whole _ _ mm2_zero_off _ hf1]

/-! ## The input windows hold their blocks -/

/-- An input window's current buffer holds the array's block at every point, fetched there or not: the body leaves it
    in place, and where the pipeline does not fetch, the block index has not moved. -/
theorem before2_0 (c : Dev nD) (t : Fin cfg2.N) (d) : (dat2 V c).before 0 t d = iblk2 V c 0 t := by
  have hk : ∀ u, (cfg2.win 0).cut (cfg2.grid.coords u) ((dat2 V c).after 0 u) = (dat2 V c).blockOf 0 u := fun u => by
    rw [after2_0]; unfold Dat.blockOf iblk2; rw [A_eq2]; try rfl
  rw [(dat2 V c).before_in_eq_fetched 0 rfl (fun _ => rfl) (fun _ _ _ => rfl) hk t d]
  unfold Dat.fetched Dat.blockOf iblk2; rw [A_eq2]; try rfl

theorem before2_1 (c : Dev nD) (t : Fin cfg2.N) (d) : (dat2 V c).before 1 t d = iblk2 V c 1 t := by
  have hk : ∀ u, (cfg2.win 1).cut (cfg2.grid.coords u) ((dat2 V c).after 1 u) = (dat2 V c).blockOf 1 u := fun u => by
    rw [after2_1]; unfold Dat.blockOf iblk2; rw [A_eq2]; try rfl
  rw [(dat2 V c).before_in_eq_fetched 1 rfl (fun _ => rfl) (fun _ _ _ => rfl) hk t d]
  unfold Dat.fetched Dat.blockOf iblk2; rw [A_eq2]; try rfl

/-! ## The invariant, the scratch set apart -/

/-- What the launch hands over, with the scratch buffer taken out of the scoped rest as a memref owned at some
    contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA
  rw [Pipeline.scopedRest_split_of_list spec2 c [cc2_scratch0] (by decide) (by decide)]
  simp only [bigSepL_singleton, scM2, owns_whole]; try rfl

theorem PhiS2_zero (c : Dev nD) (n : ℕ) (h : n ≤ cfg2.N) (hz : n = 0) : PhiS2 V c n h = Pipeline.ΦA spec2 c := by
  subst hz; rfl

/-- Before a point that is not the first: the scratch at the running block the point before left. -/
theorem PhiS2_pos (c : Dev nD) (n : ℕ) (h : n ≤ cfg2.N) (hz : n ≠ 0) :
    PhiS2 V c n h = iprop(iprop(owns (c : Thread nD τ) scM2 fullShare (accAt2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-! ## The body at a point -/

/-- Each window's current staging memref at a point, as the pipeline passes it to the body. -/
abbrev ms2_0 (t : Fin cfg2.N) : Memref sig .tc .vmem S1024x1024 .bf16 := win2_0.stage (cfg2.slots t 0)
abbrev ms2_1 (t : Fin cfg2.N) : Memref sig .tc .vmem S1024x1024 .bf16 := win2_1.stage (cfg2.slots t 1)
abbrev ms2_2 (t : Fin cfg2.N) : Memref sig .tc .vmem S1024x1024 .f32 := win2_2.stage (cfg2.slots t 2)

set_option maxHeartbeats 4000000 in
/-- The body at any point. The input buffers hold their blocks. At a first-half point the body resets the scratch, adds
    the point's product and leaves the output buffer as it found it; at a second-half point it adds the point's product
    to what the point before left in the scratch and copies the sum into the output buffer. -/
theorem sound_body2 (c : Dev nD) (t : Fin cfg2.N) :
    iprop((dat2 V c).Φ t.castSucc ∗ (dat2 V c).owesAt () t.castSucc
        ∗ (∃ d, owns (c : Thread nD τ) (ms2_0 t) fullShare ((dat2 V c).before 0 t d))
        ∗ (∃ d, owns (c : Thread nD τ) (ms2_1 t) fullShare ((dat2 V c).before 1 t d))
        ∗ (∃ d, owns (c : Thread nD τ) (ms2_2 t) fullShare ((dat2 V c).before 2 t d)))
      ⊢ wp frame (wpE (defs₀ (F := F)) Variants.none c none) Set.univ (bodyAt2 t) (fun _ =>
          iprop((dat2 V c).Φ t.succ ∗ (dat2 V c).owesAt () t.succ
            ∗ (dat2 V c).leavesExact 0 t ∗ (dat2 V c).leavesExact 1 t ∗ (dat2 V c).leavesExact 2 t)) := by
  unfold bodyAt2
  simp only [before2_0, before2_1]
  rw [show (dat2 V c).owesAt () t.succ = (dat2 V c).owesAt () t.castSucc from rfl]
  rw [show (dat2 V c).Φ t.succ = PhiS2 V c (t.val + 1) t.isLt from rfl]
  rw [show PhiS2 V c (t.val + 1) t.isLt = iprop(iprop(owns (c : Thread nD τ) scM2 fullShare (accAt2 V c t.val t.isLt)
      ∗ Pipeline.scopedRestBut (Ix := Unit) (Name := ℕ) (U := UR sig nD τ) (Lvl := ℕ) (Val := Elt F) spec2 c [cc2_scratch0]) ∗ (∃ r, prngReg c r)) from rfl]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  have hN : t.val < 64 := lt_of_lt_of_eq t.isLt (show cfg2.N = 64 from N_2)
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idle2_2_even t h0) (noflush2_2_even t h0)]
    rw [accAt2_even V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩⟩
      iapply (run2_even c (grid2.coords t) _ _ _ _ _ _ _ _ hc0 hc1 (iblk2 V c 0 t) (iblk2 V c 1 t) ((dat2 V c).before 2 t d2) Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, HR⟩, Hg⟩, Ho, ⟨%d0, H0⟩, ⟨%d1, H1⟩, ⟨%d2, H2⟩⟩
      iapply (run2_even c (grid2.coords t) _ _ _ _ _ _ _ _ hc0 hc1 (iblk2 V c 0 t) (iblk2 V c 1 t) ((dat2 V c).before 2 t d2) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have h1 : t.val % 2 = 1 := by omega
    have hz : t.val ≠ 0 := by omega
    have hc0 : ¬cond2_0 (grid2.coords t) := fun h => h0 ((hcond2_0 t).mp h)
    have hc1 : cond2_1 (grid2.coords t) := (hcond2_1 t).mpr h1
    rw [show (dat2 V c).leavesExact 2 t = owns (c : Thread nD τ) (ms2_2 t) fullShare ((dat2 V c).after 2 t) from by
      unfold Dat.leavesExact; rw [live2_2_odd t h1], after2_2]
    rw [accAt2_odd V c t h1]
    rw [PhiS2_castSucc V c t, PhiS2_pos V c _ _ hz]
    iintro ⟨⟨⟨HS, HR⟩, Hg⟩, Ho, ⟨%d0, H0⟩, ⟨%d1, H1⟩, ⟨%d2, H2⟩⟩
    iapply (run2_odd c (grid2.coords t) _ _ _ _ _ _ _ _ hc0 hc1 (iblk2 V c 0 t) (iblk2 V c 1 t) (accAt2 V c (t.val - 1) (Nat.lt_of_le_of_lt (Nat.sub_le _ _) t.isLt)) Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The body obligation of region 2 at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives back what the launch handed over: the running block's contents forgotten. -/
theorem hout2 (c : Dev nD) : (dat2 V c).Φ (Fin.last cfg2.N) ⊢ (Pipeline.ΦA spec2 c : sProp 𝕄) := by
  have hN : cfg2.N ≠ 0 := by rw [show cfg2.N = 64 from N_2]; decide
  rw [show (dat2 V c).Φ (Fin.last cfg2.N) = PhiS2 V c cfg2.N (Nat.le_refl _) from rfl, PhiS2_pos V c _ _ hN, PhiA2_eq]
  iintro ⟨⟨HS, HR⟩, Hg⟩
  isplitl [HS HR]
  · isplitl [HS]
    · iexists _; iexact HS
    iexact HR
  iexact Hg

end Cert.KernelIdeal.Fr

end
-- ==== Proof.KI.Run.lean ====
/-
  The whole run of the program: one reshape on the host, the three regions in order, one reshape on the host. Between two
  items every unscoped buffer of the core is held at named contents: the launch memory, then what each item leaves
  (a host operation its result; a region its output array at what its write-backs leave, every other buffer as it was).
  The run ends with every unscoped buffer at the last of these contents, from which the frame (the four arguments are
  never written) and the result's value are read.
-/
import proofs.«133913_j10093173146229_1_alg».proof.Proof.KI.Rf0
import proofs.«133913_j10093173146229_1_alg».proof.Proof.KI.Rf1
import proofs.«133913_j10093173146229_1_alg».proof.Proof.KI.Mm2
import Idealize.ShloMosaic.Adequacy
import Idealize.ShloMosaic.Init

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 (c : Dev nD) : Valuation τ sig (Elt F) := fun b => m (c, b)
/-- After the first host operation (the input flattened to 8192 rows). -/
def W1 (c : Dev nD) : Valuation τ sig (Elt F) := StableHlo.after hostOps0 (W0 m c)
/-- The same read at the TensorCore's references: what region 0 finds. -/
abbrev Vr1 : (c : Dev nD) → (b : Ref sig .tc) → Buf (Elt F) ((c : Thread nD τ).loc b) := fun c b => W1 m c (Proc.devRef .tc b)
/-- After region 0: its arrays at what the pipeline leaves, every other buffer as entered. -/
def W2 (c : Dev nD) : Valuation τ sig (Elt F) :=
  Pipeline.withArrays spec0 c (W1 m c) fun w => (dat0 (Vr1 m) c).arrAt w cfg0.N
/-- What region 1 finds. -/
abbrev Vr2 : (c : Dev nD) → (b : Ref sig .tc) → Buf (Elt F) ((c : Thread nD τ).loc b) := fun c b => W2 m c (Proc.devRef .tc b)
/-- After region 1. -/
def W3 (c : Dev nD) : Valuation τ sig (Elt F) :=
  Pipeline.withArrays spec1 c (W2 m c) fun w => (dat1 (Vr2 m) c).arrAt w cfg1.N
/-- What region 2 finds. -/
abbrev Vr3 : (c : Dev nD) → (b : Ref sig .tc) → Buf (Elt F) ((c : Thread nD τ).loc b) := fun c b => W3 m c (Proc.devRef .tc b)
/-- After region 2. -/
def W4 (c : Dev nD) : Valuation τ sig (Elt F) :=
  Pipeline.withArrays spec2 c (W3 m c) fun w => (dat2 (Vr3 m) c).arrAt w cfg2.N
/-- After the last host operation (the result unflattened). -/
def W5 (c : Dev nD) : Valuation τ sig (Elt F) := StableHlo.after hostOps3 (W4 m c)

/-- What the last host operation finds. -/
abbrev Vr4 : (c : Dev nD) → (b : Ref sig .tc) → Buf (Elt F) ((c : Thread nD τ).loc b) := fun c b => W4 m c (Proc.devRef .tc b)

/-! ## Reading the contents through the items

A region leaves each of its arrays at what its write-backs leave and every other buffer as it found it; a host
operation changes only the buffer it writes. -/

theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)

theorem W4_arr (c : Dev nD) (w : Fin cfg2.W) :
    W4 m c (Proc.devRef .tc (Pipeline.arrRef spec2 w)) = (dat2 (Vr3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
theorem hF2 (c : Dev nD) (w : Fin cfg2.W) : (dat2 (Vr3 m) c).arrAt w cfg2.N = Vr4 m c (Pipeline.arrRef spec2 w) :=
  (W4_arr m c w).symm
theorem hrest2 (c : Dev nD) : ∀ b, b ∉ Finset.univ.image (Pipeline.arrRef spec2) → Vr4 m c b = Vr3 m c b :=
  fun b hb => W4_of_ne m c b fun w e => hb (Finset.mem_image.mpr ⟨w, Finset.mem_univ _, e⟩)

/-- Neither host operation allocates a buffer. -/
theorem host0_fresh : (hostOps0 : List (HloOp τ sig (Elt F))).Forall fun op => op.fresh = ∅ := by
  simp only [List.Forall]; repeat' constructor
theorem host3_fresh : (hostOps3 : List (HloOp τ sig (Elt F))).Forall fun op => op.fresh = ∅ := by
  simp only [List.Forall]; repeat' constructor
/-- The first host operation writes the flattened input only, the last one the unflattened result only. -/
theorem host0_writes : (hostOps0 : List (HloOp τ sig (Elt F))).Forall fun op => op.writes ⊆ (([main_v0] : List (Ref sig .tc)).map (Proc.devRef (τ := τ) .tc)).toFinset := by
  simp only [List.Forall, StableHlo.reshape_writes, Finset.singleton_subset_iff, List.mem_toFinset]
  exact List.mem_map_of_mem (by decide)
theorem host3_writes : (hostOps3 : List (HloOp τ sig (Elt F))).Forall fun op => op.writes ⊆ (([main_v4] : List (Ref sig .tc)).map (Proc.devRef (τ := τ) .tc)).toFinset := by
  simp only [List.Forall, StableHlo.reshape_writes, Finset.singleton_subset_iff, List.mem_toFinset]
  exact List.mem_map_of_mem (by decide)
theorem W1_of (c : Dev nD) (r : Ref sig .tc) (h : r ∉ ([main_v0] : List (Ref sig .tc))) : W1 m c (Proc.devRef .tc r) = W0 m c (Proc.devRef .tc r) := by
  unfold W1; exact StableHlo.after_of_writes_sub hostOps0 _ host0_writes h
theorem W5_of (c : Dev nD) (r : Ref sig .tc) (h : r ∉ ([main_v4] : List (Ref sig .tc))) : W5 m c (Proc.devRef .tc r) = W4 m c (Proc.devRef .tc r) := by
  unfold W5; exact StableHlo.after_of_writes_sub hostOps3 _ host3_writes h

/-! ## The arguments are never written

No host operation writes an argument; a region either does not touch it or reads it through an input window, whose
array the pipeline leaves as found. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 0).trans (((dat0 (Vr1 m) c).arrAt_in 0 rfl _).trans (A_eq0 (Vr1 m) c 0))
    _ = W0 m c (Proc.devRef .tc main_arg1) := W1_of m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_of_ne m c main_arg2 (by decide)
    _ = W2 m c (Proc.devRef .tc main_arg2) := (W3_arr m c 2).trans (((dat1 (Vr2 m) c).arrAt_in 2 rfl _).trans (A_eq1 (Vr2 m) c 2))
    _ = W1 m c (Proc.devRef .tc main_arg2) := (W2_arr m c 2).trans (((dat0 (Vr1 m) c).arrAt_in 2 rfl _).trans (A_eq0 (Vr1 m) c 2))
    _ = W0 m c (Proc.devRef .tc main_arg2) := W1_of m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := (W3_arr m c 1).trans (((dat1 (Vr2 m) c).arrAt_in 1 rfl _).trans (A_eq1 (Vr2 m) c 1))
    _ = W1 m c (Proc.devRef .tc main_arg3) := (W2_arr m c 1).trans (((dat0 (Vr1 m) c).arrAt_in 1 rfl _).trans (A_eq0 (Vr1 m) c 1))
    _ = W0 m c (Proc.devRef .tc main_arg3) := W1_of m c main_arg3 (by decide)
    _ = m ((c : Thread nD τ).loc main_arg3) := rfl

/-- An unscoped TensorCore reference is among those the run ends holding. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data of the three regions and what rides beside the buffers -/

/-- No region has a prefetched table. -/
abbrev adm : (p : Fin 3) → (pcfgs (F := F) p).Adm := fun p => (cfgs p).toPCfg_adm
/-- Each region's proof data at the contents the region finds. -/
def pdats : (p : Fin 3) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
  | ⟨2, _⟩ => fun c => dat2 (Vr3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)
/-- A line of host operations as an item: from the unscoped buffers at `W` to the same buffers at what the line leaves. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as items -/

set_option backward.isDefEq.respectTransparency.types false in
/-- Region 0 between its two boundaries: entered with every unscoped buffer at `W1`, left with them at `W2`.
    On entry the region's arrays are split off the unscoped buffers and the rest bypasses the region; on exit the
    arrays, at what the write-backs leave, are joined with the bypassing rest. The generator register goes into the
    region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between its two boundaries: entered with every unscoped buffer at `W2`, left with them at `W3`.
    On entry the region's arrays are split off the unscoped buffers and the rest bypasses the region; on exit the
    arrays, at what the write-backs leave, are joined with the bypassing rest. The generator register goes into the
    region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between its two boundaries: entered with every unscoped buffer at `W3`, left with them at `W4`.
    On entry the region's arrays are split off the unscoped buffers and the rest bypasses the region; on exit the
    arrays, at what the write-backs leave, are joined with the bypassing rest. The generator register goes into the
    region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (Vr3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr3 m) c)
    unfold Pipeline.ΦA
    iintro ⟨Hp, -, Hr⟩
    isplitl [Hr]; · iexact Hr
    iexact Hp
  hout c := by
    rw [Pipeline.ownSems0_none]
    refine BIBase.Entails.trans (hout2 (Vr3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr3 m c) (Vr4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's five items in order. -/
abbrev segs : List (Pipeline.Seg (pcfgs (F := F)) adm (pdats m) () defs₀ 𝒱₀ L lv) :=
  [ .host (hseg hostOps0 hostOps0_sub host0_fresh (W0 m)),
    .region (reg0 m),
    .region (reg1 m),
    .region (reg2 m),
    .host (hseg hostOps3 hostOps3_sub host3_fresh (W4 m)) ]
/-- The program is the run of its items. -/
theorem main_run (c : Dev nD) : main (F := F) c = Pipeline.Seg.run (segs m) := (main_chain c).trans (by chain_rfl)

set_option backward.isDefEq.respectTransparency.types false in
/-- From any memory with zero counters every weakly fair execution of the program terminates, nothing faulting, with
    every unscoped buffer of every core at the last contents `W5`. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (StableHlo.after hostOps3 (W4 m c)) ∗ R c)
        ⊢ iprop(iprop(StableHlo.held (c : Thread nD τ) (Pipeline.ucRefs τ sig) (W5 m c) ∗ ∃ r, prngReg c r) ∗ ∃ W, owes (c : Thread nD τ) (0 : CellTallies nD τ sig Unit) W)
      unfold W5
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the program runs to the end and its four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

end Cert.KernelIdeal.Fr

end
-- ==== Proof.Spec.lean ====
/-
  The mathematics both programs compute, index by index, on the extended reals.

  A row `x_r` (1024 numbers), a projection matrix `gs` (2048 rows of 1024) and coefficients `ab` (2048 numbers) give
  the positive random feature
      feat(r, m) = s * exp( sum_d x_r[d] * (ab[m] * gs[m, d])  -  (h * sum_d x_r[d]^2) * (ab[m] * ab[m]) ),
  with `s` and `h` two fixed float words (the words of 1/sqrt(2048) rounded, and of 1/2), kept as words: both programs
  carry the same two. The result is the product of the features of the 8192 rows of `x` (the 4 x 2048 leading axes
  flattened) with the features of the 4096 rows of `w`, contracted over the 2048 features:
      out[b, s, o] = sum_m feat_x(2048 b + s, m) * feat_w(o, m).
-/
import Idealize.ShloMosaic.PureOps.Ideal
import Idealize.ShloMosaic.Lib.ValueIdx

noncomputable section

open scoped BigOperators

namespace Cert.Spec

open Idealize.ShloMosaic Idealize.ShloMosaic.ValueIdx

/-- The word of one half. -/
abbrev half : EReal := Ideal.ofBits .f32 0x3F000000#32
/-- The word both programs scale a feature by (1/sqrt 2048, rounded to a float). -/
abbrev scale : EReal := Ideal.ofBits .f32 0x3CB504F3#32

/-- One feature from a row, a projection row and its coefficient. -/
def featAt (xrow grow : Fin 1024 → EReal) (a : EReal) : EReal :=
  scale * Ideal.exp ((∑ d : Fin 1024, xrow d * (a * grow d)) - (half * ∑ d : Fin 1024, xrow d * xrow d) * (a * a))

/-- The feature matrix of `R` rows. -/
def feat {R : Nat} (x : (⟨2, ![R, 1024]⟩ : Shape).Idx → EReal) (gs : (⟨2, ![2048, 1024]⟩ : Shape).Idx → EReal)
    (ab : (⟨1, ![2048]⟩ : Shape).Idx → EReal) : (⟨2, ![R, 2048]⟩ : Shape).Idx → EReal :=
  fun j => featAt (fun d => x (@ix2 R 1024 (j 0) d)) (fun d => gs (@ix2 2048 1024 (j 1) d)) (ab (@ix1 2048 (j 1)))

/-- `a` times the transpose of `b`: rows of `a` against rows of `b`. -/
def mmT {R N K : Nat} (a : (⟨2, ![R, K]⟩ : Shape).Idx → EReal) (b : (⟨2, ![N, K]⟩ : Shape).Idx → EReal) :
    (⟨2, ![R, N]⟩ : Shape).Idx → EReal :=
  fun j => ∑ k : Fin K, a (@ix2 R K (j 0) k) * b (@ix2 N K (j 1) k)

/-- Row `2048 b + s` of the flattened array is row `(b, s)`. -/
theorem flat_lt (b : Fin 4) (s : Fin 2048) : b.val * 2048 + s.val < 8192 := by
  have := b.isLt; have := s.isLt; omega

/-- The 4 x 2048 leading axes flattened to 8192 rows. -/
def rows (x : (⟨3, ![4, 2048, 1024]⟩ : Shape).Idx → EReal) : (⟨2, ![8192, 1024]⟩ : Shape).Idx → EReal :=
  fun j => x (@ix3 4 2048 1024 ⟨(j 0).val / 2048, by have := idx2_lt0 j; omega⟩ ⟨(j 0).val % 2048, Nat.mod_lt _ (by decide)⟩ (j 1))

/-- 8192 rows unflattened to 4 x 2048. -/
def unrows (y : (⟨2, ![8192, 4096]⟩ : Shape).Idx → EReal) : (⟨3, ![4, 2048, 4096]⟩ : Shape).Idx → EReal :=
  fun j => y (@ix2 8192 4096 ⟨(j 0).val * 2048 + (j 1).val, flat_lt (j 0) (j 1)⟩ (j 2))

/-- The result as one function of the four argument arrays. -/
def G (x : (⟨3, ![4, 2048, 1024]⟩ : Shape).Idx → EReal) (w : (⟨2, ![4096, 1024]⟩ : Shape).Idx → EReal)
    (ab : (⟨1, ![2048]⟩ : Shape).Idx → EReal) (gs : (⟨2, ![2048, 1024]⟩ : Shape).Idx → EReal) :
    (⟨3, ![4, 2048, 4096]⟩ : Shape).Idx → EReal :=
  unrows (mmT (feat (rows x) gs ab) (feat w gs ab))

end Cert.Spec

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.LibRowForms.lean ====
/-
  A vector laid out as a row, two ways.

  An `[n]` vector becomes a `[1, n]` row either by a shape cast or by a broadcast along axis 1; the two rows are the
  same array: entry `(0, q)` of either is entry `q` of the vector.
-/
import Idealize.ShloMosaic.Lib.ValueIdx
import Idealize.ShloMosaic.Lib.Pipeline.Value
import Idealize.ShloMosaic.Lib.ValueLayout
import Idealize.ShloMosaic.Lib.StableHlo.Predicate

namespace Cert.LibRowForms

open Idealize.ShloMosaic Idealize.ShloMosaic.ValueIdx

/-- The cast of an `[n]` vector to a `[1, n]` row is its broadcast along axis 1. -/
theorem row_cast_eq_bcast {α : Type} {n : Nat} (v : (⟨1, ![n]⟩ : Shape).Idx → α)
    (h₁ : (⟨1, ![n]⟩ : Shape).ShapeCasts ⟨2, ![1, n]⟩)
    (h₂ : (⟨1, ![n]⟩ : Shape).BroadcastsInDim ⟨2, ![1, n]⟩ (![1] : Fin 1 → Fin (⟨2, ![1, n]⟩ : Shape).rank)) :
    shapeCast ⟨2, ![1, n]⟩ v h₁ = broadcastInDim ⟨2, ![1, n]⟩ ![1] h₂ v := by
  -- Entry by entry: an index of the row is (u, q) with u the unit coordinate. The cast reads the vector at q,
  -- whatever u is; the broadcast along axis 1 reads the vector at the row index's coordinate on axis 1, which is q
  -- (when n = 1 the vector's one axis is a unit axis and is read at 0, which is again q).
  funext i
  obtain ⟨u, q, rfl⟩ : ∃ (u : Fin 1) (q : Fin n), i = ix2 u q := ⟨i 0, i 1, eq_ix2 i⟩
  rw [shapeCast_a_1a_apply]
  refine (broadcastInDim_apply ![1] h₂ v (ix2 u q) (ix1 q) fun a => ?_).symm
  match a with
  | ⟨0, _⟩ =>
    show q.val = if n = 1 then 0 else q.val
    split
    · have := q.isLt; omega
    · rfl

end Cert.LibRowForms
-- ==== Proof.KI.RfValue0.lean ====
/-
  What region 0 leaves in its output array, at the extended reals: the feature matrix of the 4096 weight rows.
  Point (i, j) of the 4 x 4 grid writes back the block of rows 1024 i .. 1024 i + 1023 and features 512 j .. 512 j + 511,
  which is the feature map restricted to that block; the sixteen blocks tile the array.
-/
import proofs.«133913_j10093173146229_1_alg».proof.Proof.KI.Rf0
import proofs.«133913_j10093173146229_1_alg».proof.Proof.Spec
import proofs.«133913_j10093173146229_1_alg».proof.Proof.LibDot
import proofs.«133913_j10093173146229_1_alg».proof.Proof.LibKeepdims
import proofs.«133913_j10093173146229_1_alg».proof.Proof.LibRowForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-- One entry of the block a point computes: at row `p` and feature `q` of the block the body's value is the feature
    of row `p` of the row block against row `q` of the projection block and entry `q` of the coefficient block. The
    product of the rows with the transposed scaled projections is the sum over the 1024 lanes; the squared norm is the
    lane sum of the squares kept as a column; the squared coefficients are laid out as a row; the roundings to the
    shorter float are the identity on the extended reals. -/
theorem pay0_apply (x0 : Vec Ideal S1024x1024 .f32) (x1 : Vec Ideal S512x1024 .f32) (x2 : Vec Ideal S512 .f32)
    (p : Fin 1024) (q : Fin 512) :
    k0_pay1 x0 x1 x2 (ix2 p q)
      = Cert.Spec.featAt (fun d => x0 (ix2 p d)) (fun d => x1 (ix2 q d)) (x2 (ix1 q)) := by
  unfold k0_pay1 Cert.Spec.featAt
  simp only [shapeCast_self]
  show Cert.Spec.scale * Ideal.exp (_ - _ * _) = _
  rw [Cert.LibDot.matmul_zero_apply _ rfl rfl rfl rfl rfl rfl]
  rw [broadcastTo_a1_ab_apply, broadcastTo_1b_ab_apply, shapeCast_a_1a_apply]
  show Cert.Spec.scale * Ideal.exp (_ - (Cert.Spec.half * _) * _) = _
  rw [shapeCast_a_a1_apply]
  refine congrArg (fun z => Cert.Spec.scale * Ideal.exp z) ?_
  refine congrArg₂ (fun a b => a - b) ?_ ?_
  · -- the product: lane `d` of the transposed scaled projections at feature `q` is coefficient times projection
    refine Finset.sum_congr rfl fun d _ => ?_
    show x0 (ix2 p d) * _ = _
    rw [transpose_ix2_apply]
    show x0 (ix2 p d) * (_ * x1 (ix2 q d)) = _
    rw [broadcastTo_a1_ab_apply, shapeCast_a_a1_apply]
  · -- half the squared norm of the row, times the squared coefficient
    refine congrArg₂ (fun a b => a * b) (congrArg (fun z => Cert.Spec.half * z) ?_) rfl
    exact multiReduction_add_cols_apply (mulf x0 x0) reduces_S1024x1024_S1024 _ _ p

variable (V : (c : Dev nD) → (b : Ref sig .tc) → Buf (Elt Ideal) ((c : Thread nD τ).loc b))

/-- The same entry against whole arrays: when row `p` of the row block is row `r` of `A1`, row `q` of the projection
    block is row `m` of `A3` and entry `q` of the coefficient block is entry `m` of `A2`, the body's value at `(p, q)`
    is the feature matrix of the three arrays at `(r, m)`. -/
theorem pay0_feat (x0 : Vec Ideal S1024x1024 .f32) (x1 : Vec Ideal S512x1024 .f32) (x2 : Vec Ideal S512 .f32)
    (A1 : S4096x1024.Idx → EReal) (A3 : S2048x1024.Idx → EReal) (A2 : S2048.Idx → EReal)
    (p : Fin 1024) (q : Fin 512) (r : Fin 4096) (m : Fin 2048)
    (h0 : ∀ d, x0 (ix2 p d) = A1 (ix2 r d)) (h1 : ∀ d, x1 (ix2 q d) = A3 (ix2 m d)) (h2 : x2 (ix1 q) = A2 (ix1 m)) :
    k0_pay1 x0 x1 x2 (ix2 p q) = Cert.Spec.feat A1 A3 A2 (ix2 r m) := by
  rw [pay0_apply, funext h0, funext h1, h2]
  rfl

/-- The printed index maps, decided over the grid: point `t` is row block `t / 4` and feature block `t % 4`; the row
    window follows the row block, the projection and the coefficient windows the feature block, the output both. -/
theorem idx_facts0 : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 1) = t.val % 4
    ∧ win0_3.index t (0 : Fin 2) = t.val / 4 ∧ win0_3.index t (1 : Fin 2) = t.val % 4 :=
  (by decide +kernel : ∀ t : Fin grid0.N, _)

/-- The grid has one point for each block of 1024 rows and each of the four blocks of 512 features. -/
theorem N_eq0 : cfg0.N = 4096 / 1024 * 4 := rfl

/-- WHAT POINT `t` WRITES BACK is block `t` of the feature matrix of the arrays as the region finds them: an entry
    of a block sits in its array, on each axis, at the block index times the block size plus its place in the block,
    and the three input blocks are read where the output block's rows and features say. -/
theorem flushed0_eq (c : Dev nD) (t : Fin cfg0.N) :
    (dat0 (F := Ideal) V c).flushed 3 t
      = ((cfg0.win 3).blk t).view.read (Elt Ideal)
          (Cert.Spec.feat (V c main_arg1) (V c main_arg3) (V c main_arg2)) := by
  show (cfg0.win 3).cut (grid0.coords t) ((dat0 V c).after 3 t) = _
  rw [after0_3]
  obtain ⟨e00, e01, e10, e11, e20, e30, e31⟩ := idx_facts0 t
  have ht : t.val < 4096 / 1024 * 4 := N_eq0 ▸ t.isLt
  funext j
  have hj0 : (j 0).val < 1024 := (j 0).isLt
  have hj1 : (j 1).val < 512 := (j 1).isLt
  show k0_pay1 (iblk0 V c 0 t) (iblk0 V c 1 t) (iblk0 V c 2 t) (win0_3.xinj (grid0.coords t) j)
    = Cert.Spec.feat (V c main_arg1) (V c main_arg3) (V c main_arg2) (((cfg0.win 3).blk t).view.emb j)
  have hx : (win0_3.xinj (grid0.coords t) j : S1024x512.Idx)
      = ix2 (⟨(j 0).val, hj0⟩ : Fin 1024) (⟨(j 1).val, hj1⟩ : Fin 512) :=
    funext fun a => match a with | ⟨0, _⟩ => rfl | ⟨1, _⟩ => rfl
  have hy : (((cfg0.win 3).blk t).view.emb j : S4096x2048.Idx)
      = ix2 (⟨t.val / 4 * 1024 + (j 0).val, by omega⟩ : Fin 4096) (⟨t.val % 4 * 512 + (j 1).val, by omega⟩ : Fin 2048) :=
    funext fun a => Fin.ext (by
      match a with
      | ⟨0, _⟩ => show win0_3.index t (0 : Fin 2) * 1024 + 1 * (j 0).val = t.val / 4 * 1024 + (j 0).val; omega
      | ⟨1, _⟩ => show win0_3.index t (1 : Fin 2) * 512 + 1 * (j 1).val = t.val % 4 * 512 + (j 1).val; omega)
  rw [hx, hy]
  refine pay0_feat _ _ _ _ _ _ _ _ _ _ (fun d => ?_) (fun d => ?_) ?_
  · show V c main_arg1 (((cfg0.win 0).blk t).view.emb (ix2 (⟨(j 0).val, hj0⟩ : Fin 1024) d)) = _
    refine congrArg (V c main_arg1) (funext fun a => Fin.ext ?_)
    match a with
    | ⟨0, _⟩ => show win0_0.index t (0 : Fin 2) * 1024 + 1 * (j 0).val = t.val / 4 * 1024 + (j 0).val; omega
    | ⟨1, _⟩ => show win0_0.index t (1 : Fin 2) * 1024 + 1 * d.val = d.val; omega
  · show V c main_arg3 (((cfg0.win 1).blk t).view.emb (ix2 (⟨(j 1).val, hj1⟩ : Fin 512) d)) = _
    refine congrArg (V c main_arg3) (funext fun a => Fin.ext ?_)
    match a with
    | ⟨0, _⟩ => show win0_1.index t (0 : Fin 2) * 512 + 1 * (j 1).val = t.val % 4 * 512 + (j 1).val; omega
    | ⟨1, _⟩ => show win0_1.index t (1 : Fin 2) * 1024 + 1 * d.val = d.val; omega
  · show V c main_arg2 (((cfg0.win 2).blk t).view.emb (ix1 (⟨(j 1).val, hj1⟩ : Fin 512))) = _
    refine congrArg (V c main_arg2) (funext fun a => Fin.ext ?_)
    match a with
    | ⟨0, _⟩ => show win0_2.index t (0 : Fin 1) * 512 + 1 * (j 1).val = t.val % 4 * 512 + (j 1).val; omega

/-- An index of the output array is in point `t`'s block iff each coordinate is in the block's range on its axis. -/
theorem mem_blk0 (t : Fin cfg0.N) (i : S4096x2048.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v1).slice (win0_3.rect t)).set ↔ _
  rw [View.set_slice_whole, Rect.mem_set_unit]
  exact Iff.rfl

/-- The blocks tile the output array: entry `(r, m)` is in the block of the point with row block `r / 1024` and
    feature block `m / 512`, and every point writes its block back. -/
theorem cover0 (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  have ht : (i 0).val / 1024 * 4 + (i 1).val / 512 < cfg0.N := by rw [N_eq0]; omega
  obtain ⟨e00, e01, e10, e11, e20, e30, e31⟩ := idx_facts0 ⟨_, ht⟩
  refine ⟨⟨_, ht⟩, flush0_3 _, (mem_blk0 _ i).mpr fun a => ?_⟩
  match a with
  | ⟨0, _⟩ =>
    show win0_3.index ⟨_, ht⟩ (0 : Fin 2) * 1024 ≤ (i 0).val ∧ (i 0).val < win0_3.index ⟨_, ht⟩ (0 : Fin 2) * 1024 + 1024
    rw [e30]; show ((i 0).val / 1024 * 4 + (i 1).val / 512) / 4 * 1024 ≤ _ ∧ _ < ((i 0).val / 1024 * 4 + (i 1).val / 512) / 4 * 1024 + 1024
    omega
  | ⟨1, _⟩ =>
    show win0_3.index ⟨_, ht⟩ (1 : Fin 2) * 512 ≤ (i 1).val ∧ (i 1).val < win0_3.index ⟨_, ht⟩ (1 : Fin 2) * 512 + 512
    rw [e31]; show ((i 0).val / 1024 * 4 + (i 1).val / 512) % 4 * 512 ≤ _ ∧ _ < ((i 0).val / 1024 * 4 + (i 1).val / 512) % 4 * 512 + 512
    omega

/-- Region 0's output array after the run is the feature matrix of the weight rows. -/
theorem arr0 (c : Dev nD) :
    (dat0 (F := Ideal) V c).arrAt 3 cfg0.N = Cert.Spec.feat (V c main_arg1) (V c main_arg3) (V c main_arg2) :=
  (dat0 (F := Ideal) V c).arrAt_eq_of_cover 3 _ (fun t _ => flushed0_eq V c t) cover0

end Cert.KernelIdeal.Val

end
-- ==== Proof.KI.RfValue1.lean ====
/-
  What region 1 leaves in its output array, at the extended reals: the feature matrix of the 8192 flattened input rows.
  Point (i, j) of the 8 x 4 grid writes back the block of rows 1024 i .. 1024 i + 1023 and features 512 j .. 512 j + 511,
  which is the feature map restricted to that block; the thirty-two blocks tile the array.
-/
import proofs.«133913_j10093173146229_1_alg».proof.Proof.KI.Rf1
import proofs.«133913_j10093173146229_1_alg».proof.Proof.Spec
import proofs.«133913_j10093173146229_1_alg».proof.Proof.LibDot
import proofs.«133913_j10093173146229_1_alg».proof.Proof.LibKeepdims
import proofs.«133913_j10093173146229_1_alg».proof.Proof.LibRowForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-- One entry of the block a point computes: at row `p` and feature `q` of the block the body's value is the feature
    of row `p` of the row block against row `q` of the projection block and entry `q` of the coefficient block. The
    product of the rows with the transposed scaled projections is the sum over the 1024 lanes; the squared norm is the
    lane sum of the squares kept as a column; the squared coefficients are laid out as a row; the roundings to the
    shorter float are the identity on the extended reals. -/
theorem pay1_apply (x0 : Vec Ideal S1024x1024 .f32) (x1 : Vec Ideal S512x1024 .f32) (x2 : Vec Ideal S512 .f32)
    (p : Fin 1024) (q : Fin 512) :
    k1_pay1 x0 x1 x2 (ix2 p q)
      = Cert.Spec.featAt (fun d => x0 (ix2 p d)) (fun d => x1 (ix2 q d)) (x2 (ix1 q)) := by
  unfold k1_pay1 Cert.Spec.featAt
  simp only [shapeCast_self]
  show Cert.Spec.scale * Ideal.exp (_ - _ * _) = _
  rw [Cert.LibDot.matmul_zero_apply _ rfl rfl rfl rfl rfl rfl]
  rw [broadcastTo_a1_ab_apply, broadcastTo_1b_ab_apply, shapeCast_a_1a_apply]
  show Cert.Spec.scale * Ideal.exp (_ - (Cert.Spec.half * _) * _) = _
  rw [shapeCast_a_a1_apply]
  refine congrArg (fun z => Cert.Spec.scale * Ideal.exp z) ?_
  refine congrArg₂ (fun a b => a - b) ?_ ?_
  · -- the product: lane `d` of the transposed scaled projections at feature `q` is coefficient times projection
    refine Finset.sum_congr rfl fun d _ => ?_
    show x0 (ix2 p d) * _ = _
    rw [transpose_ix2_apply]
    show x0 (ix2 p d) * (_ * x1 (ix2 q d)) = _
    rw [broadcastTo_a1_ab_apply, shapeCast_a_a1_apply]
  · -- half the squared norm of the row, times the squared coefficient
    refine congrArg₂ (fun a b => a * b) (congrArg (fun z => Cert.Spec.half * z) ?_) rfl
    exact multiReduction_add_cols_apply (mulf x0 x0) reduces_S1024x1024_S1024 _ _ p

variable (V : (c : Dev nD) → (b : Ref sig .tc) → Buf (Elt Ideal) ((c : Thread nD τ).loc b))

/-- The same entry against whole arrays: when row `p` of the row block is row `r` of `A1`, row `q` of the projection
    block is row `m` of `A3` and entry `q` of the coefficient block is entry `m` of `A2`, the body's value at `(p, q)`
    is the feature matrix of the three arrays at `(r, m)`. -/
theorem pay1_feat (x0 : Vec Ideal S1024x1024 .f32) (x1 : Vec Ideal S512x1024 .f32) (x2 : Vec Ideal S512 .f32)
    (A1 : S8192x1024.Idx → EReal) (A3 : S2048x1024.Idx → EReal) (A2 : S2048.Idx → EReal)
    (p : Fin 1024) (q : Fin 512) (r : Fin 8192) (m : Fin 2048)
    (h0 : ∀ d, x0 (ix2 p d) = A1 (ix2 r d)) (h1 : ∀ d, x1 (ix2 q d) = A3 (ix2 m d)) (h2 : x2 (ix1 q) = A2 (ix1 m)) :
    k1_pay1 x0 x1 x2 (ix2 p q) = Cert.Spec.feat A1 A3 A2 (ix2 r m) := by
  rw [pay1_apply, funext h0, funext h1, h2]
  rfl

/-- The printed index maps, decided over the grid: point `t` is row block `t / 4` and feature block `t % 4`; the row
    window follows the row block, the projection and the coefficient windows the feature block, the output both. -/
theorem idx_facts1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 1) = t.val % 4
    ∧ win1_3.index t (0 : Fin 2) = t.val / 4 ∧ win1_3.index t (1 : Fin 2) = t.val % 4 :=
  (by decide +kernel : ∀ t : Fin grid1.N, _)

/-- The grid has one point for each block of 1024 rows and each of the four blocks of 512 features. -/
theorem N_eq1 : cfg1.N = 8192 / 1024 * 4 := rfl

/-- WHAT POINT `t` WRITES BACK is block `t` of the feature matrix of the arrays as the region finds them: an entry
    of a block sits in its array, on each axis, at the block index times the block size plus its place in the block,
    and the three input blocks are read where the output block's rows and features say. -/
theorem flushed1_eq (c : Dev nD) (t : Fin cfg1.N) :
    (dat1 (F := Ideal) V c).flushed 3 t
      = ((cfg1.win 3).blk t).view.read (Elt Ideal)
          (Cert.Spec.feat (V c main_v0) (V c main_arg3) (V c main_arg2)) := by
  show (cfg1.win 3).cut (grid1.coords t) ((dat1 V c).after 3 t) = _
  rw [after1_3]
  obtain ⟨e00, e01, e10, e11, e20, e30, e31⟩ := idx_facts1 t
  have ht : t.val < 8192 / 1024 * 4 := N_eq1 ▸ t.isLt
  funext j
  have hj0 : (j 0).val < 1024 := (j 0).isLt
  have hj1 : (j 1).val < 512 := (j 1).isLt
  show k1_pay1 (iblk1 V c 0 t) (iblk1 V c 1 t) (iblk1 V c 2 t) (win1_3.xinj (grid1.coords t) j)
    = Cert.Spec.feat (V c main_v0) (V c main_arg3) (V c main_arg2) (((cfg1.win 3).blk t).view.emb j)
  have hx : (win1_3.xinj (grid1.coords t) j : S1024x512.Idx)
      = ix2 (⟨(j 0).val, hj0⟩ : Fin 1024) (⟨(j 1).val, hj1⟩ : Fin 512) :=
    funext fun a => match a with | ⟨0, _⟩ => rfl | ⟨1, _⟩ => rfl
  have hy : (((cfg1.win 3).blk t).view.emb j : S8192x2048.Idx)
      = ix2 (⟨t.val / 4 * 1024 + (j 0).val, by omega⟩ : Fin 8192) (⟨t.val % 4 * 512 + (j 1).val, by omega⟩ : Fin 2048) :=
    funext fun a => Fin.ext (by
      match a with
      | ⟨0, _⟩ => show win1_3.index t (0 : Fin 2) * 1024 + 1 * (j 0).val = t.val / 4 * 1024 + (j 0).val; omega
      | ⟨1, _⟩ => show win1_3.index t (1 : Fin 2) * 512 + 1 * (j 1).val = t.val % 4 * 512 + (j 1).val; omega)
  rw [hx, hy]
  refine pay1_feat _ _ _ _ _ _ _ _ _ _ (fun d => ?_) (fun d => ?_) ?_
  · show V c main_v0 (((cfg1.win 0).blk t).view.emb (ix2 (⟨(j 0).val, hj0⟩ : Fin 1024) d)) = _
    refine congrArg (V c main_v0) (funext fun a => Fin.ext ?_)
    match a with
    | ⟨0, _⟩ => show win1_0.index t (0 : Fin 2) * 1024 + 1 * (j 0).val = t.val / 4 * 1024 + (j 0).val; omega
    | ⟨1, _⟩ => show win1_0.index t (1 : Fin 2) * 1024 + 1 * d.val = d.val; omega
  · show V c main_arg3 (((cfg1.win 1).blk t).view.emb (ix2 (⟨(j 1).val, hj1⟩ : Fin 512) d)) = _
    refine congrArg (V c main_arg3) (funext fun a => Fin.ext ?_)
    match a with
    | ⟨0, _⟩ => show win1_1.index t (0 : Fin 2) * 512 + 1 * (j 1).val = t.val % 4 * 512 + (j 1).val; omega
    | ⟨1, _⟩ => show win1_1.index t (1 : Fin 2) * 1024 + 1 * d.val = d.val; omega
  · show V c main_arg2 (((cfg1.win 2).blk t).view.emb (ix1 (⟨(j 1).val, hj1⟩ : Fin 512))) = _
    refine congrArg (V c main_arg2) (funext fun a => Fin.ext ?_)
    match a with
    | ⟨0, _⟩ => show win1_2.index t (0 : Fin 1) * 512 + 1 * (j 1).val = t.val % 4 * 512 + (j 1).val; omega

/-- An index of the output array is in point `t`'s block iff each coordinate is in the block's range on its axis. -/
theorem mem_blk1 (t : Fin cfg1.N) (i : S8192x2048.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v2).slice (win1_3.rect t)).set ↔ _
  rw [View.set_slice_whole, Rect.mem_set_unit]
  exact Iff.rfl

/-- The blocks tile the output array: entry `(r, m)` is in the block of the point with row block `r / 1024` and
    feature block `m / 512`, and every point writes its block back. -/
theorem cover1 (i : S8192x2048.Idx) :
    ∃ t : Fin cfg1.N, (cfg1.win 3).flush t = true ∧ i ∈ ((cfg1.win 3).blk t).view.set := by
  have hi0 : (i 0).val < 8192 := (i 0).isLt
  have hi1 : (i 1).val < 2048 := (i 1).isLt
  have ht : (i 0).val / 1024 * 4 + (i 1).val / 512 < cfg1.N := by rw [N_eq1]; omega
  obtain ⟨e00, e01, e10, e11, e20, e30, e31⟩ := idx_facts1 ⟨_, ht⟩
  refine ⟨⟨_, ht⟩, flush1_3 _, (mem_blk1 _ i).mpr fun a => ?_⟩
  match a with
  | ⟨0, _⟩ =>
    show win1_3.index ⟨_, ht⟩ (0 : Fin 2) * 1024 ≤ (i 0).val ∧ (i 0).val < win1_3.index ⟨_, ht⟩ (0 : Fin 2) * 1024 + 1024
    rw [e30]; show ((i 0).val / 1024 * 4 + (i 1).val / 512) / 4 * 1024 ≤ _ ∧ _ < ((i 0).val / 1024 * 4 + (i 1).val / 512) / 4 * 1024 + 1024
    omega
  | ⟨1, _⟩ =>
    show win1_3.index ⟨_, ht⟩ (1 : Fin 2) * 512 ≤ (i 1).val ∧ (i 1).val < win1_3.index ⟨_, ht⟩ (1 : Fin 2) * 512 + 512
    rw [e31]; show ((i 0).val / 1024 * 4 + (i 1).val / 512) % 4 * 512 ≤ _ ∧ _ < ((i 0).val / 1024 * 4 + (i 1).val / 512) % 4 * 512 + 512
    omega

/-- Region 1's output array after the run is the feature matrix of the flattened input rows. -/
theorem arr1 (c : Dev nD) :
    (dat1 (F := Ideal) V c).arrAt 3 cfg1.N = Cert.Spec.feat (V c main_v0) (V c main_arg3) (V c main_arg2) :=
  (dat1 (F := Ideal) V c).arrAt_eq_of_cover 3 _ (fun t _ => flushed1_eq V c t) cover1

end Cert.KernelIdeal.Val

end
-- ==== Proof.KI.MmValue2.lean ====
/-
  What region 2 leaves in its output array, at the extended reals: the product of the two feature matrices, rows against
  rows. Block (i, j) of 1024 x 1024 entries is written back at the second of its two points, where the running block
  holds zero plus the first 1024 features' products plus the last 1024 features' products: the sum over all 2048.
-/
import proofs.«133913_j10093173146229_1_alg».proof.Proof.KI.Mm2
import proofs.«133913_j10093173146229_1_alg».proof.Proof.Spec
import proofs.«133913_j10093173146229_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-- The zero block reads zero everywhere. -/
theorem k2pay1_apply (j : S1024x1024.Idx) : k2_pay1 (F := Ideal) j = (0 : EReal) := by
  unfold k2_pay1
  rw [shapeCast_self]
  show Ideal.ofBits .f32 0x00000000#32 = 0
  exact Ideal.ofBits_zero_f32

/-- One step of the running block, at an entry: what it held plus the products of the two operand rows. -/
theorem k2pay2_apply (s : Vec Ideal S1024x1024 .f32) (a b : Vec Ideal S1024x1024 .bf16) (p q : Fin 1024) :
    k2_pay2 s a b (ix2 p q) = s (ix2 p q) + ∑ k : Fin 1024, a (ix2 p k) * b (ix2 q k) := by
  unfold k2_pay2
  rw [shapeCast_self, shapeCast_self, shapeCast_self, addf_apply]
  congr 1
  refine (Cert.LibDot.matmul_zero_apply _ rfl rfl rfl rfl rfl rfl none _ _ p q).trans ?_
  refine Finset.sum_congr rfl fun k _ => ?_
  congr 1
  exact transpose_apply _ _ _ (ix2 k q) (ix2 q k) (fun c => by match c with | ⟨0, _⟩ => rfl | ⟨1, _⟩ => rfl)

variable (V : (c : Dev nD) → (b : Ref sig .tc) → Buf (Elt Ideal) ((c : Thread nD τ).loc b))

/-- The printed index maps, decided over the grid: point t = 8 i + 2 j + h reads the left operand's block (i, h), the
    right operand's block (j, h), and works on the output's block (i, j). -/
theorem idx_facts2 : ∀ t : Fin cfg2.N, win2_0.index t (0 : Fin 2) = t.val / 8
    ∧ win2_0.index t (1 : Fin 2) = t.val % 2
    ∧ win2_1.index t (0 : Fin 2) = t.val / 2 % 4
    ∧ win2_1.index t (1 : Fin 2) = t.val % 2
    ∧ win2_2.index t (0 : Fin 2) = t.val / 8
    ∧ win2_2.index t (1 : Fin 2) = t.val / 2 % 4 :=
  (by decide +kernel : ∀ t : Fin grid2.N, _)

theorem N2 : cfg2.N = 64 := by decide +kernel

/-- The left operand's block at a point, read where its rectangle lies in the array. -/
theorem iblk2_0_apply (c : Dev nD) (t : Fin cfg2.N) (p k : Fin 1024) (r : Fin 8192) (kk : Fin 2048)
    (hr : r.val = win2_0.index t (0 : Fin 2) * 1024 + p.val) (hk : kk.val = win2_0.index t (1 : Fin 2) * 1024 + k.val) :
    iblk2 V c 0 t (ix2 p k) = V c main_v2 (ix2 r kk) := by
  show V c main_v2 (((cfg2.win 0).blk t).view.emb (ix2 p k)) = V c main_v2 (ix2 r kk)
  congr 1
  funext a; apply Fin.ext
  match a with
  | ⟨0, _⟩ => show win2_0.index t (0 : Fin 2) * 1024 + 1 * p.val = r.val; omega
  | ⟨1, _⟩ => show win2_0.index t (1 : Fin 2) * 1024 + 1 * k.val = kk.val; omega

/-- The right operand's block at a point, read where its rectangle lies in the array. -/
theorem iblk2_1_apply (c : Dev nD) (t : Fin cfg2.N) (q k : Fin 1024) (n : Fin 4096) (kk : Fin 2048)
    (hn : n.val = win2_1.index t (0 : Fin 2) * 1024 + q.val) (hk : kk.val = win2_1.index t (1 : Fin 2) * 1024 + k.val) :
    iblk2 V c 1 t (ix2 q k) = V c main_v1 (ix2 n kk) := by
  show V c main_v1 (((cfg2.win 1).blk t).view.emb (ix2 q k)) = V c main_v1 (ix2 n kk)
  congr 1
  funext a; apply Fin.ext
  match a with
  | ⟨0, _⟩ => show win2_1.index t (0 : Fin 2) * 1024 + 1 * q.val = n.val; omega
  | ⟨1, _⟩ => show win2_1.index t (1 : Fin 2) * 1024 + 1 * k.val = kk.val; omega

/-- Two halves of the features, summed: the zero block plus the first half's products plus the second half's products
    is the sum over all 2048 features. Stated over any two arrays and any four blocks that read them as given. -/
theorem two_steps (A : S8192x2048.Idx → EReal) (B : S4096x2048.Idx → EReal)
    (a0 a1 b0 b1 : Vec Ideal S1024x1024 .bf16) (r : Fin 8192) (n : Fin 4096) (p q : Fin 1024)
    (ha0 : ∀ k : Fin 1024, a0 (ix2 p k) = A (ix2 r (Fin.castAdd 1024 k)))
    (ha1 : ∀ k : Fin 1024, a1 (ix2 p k) = A (ix2 r (Fin.natAdd 1024 k)))
    (hb0 : ∀ k : Fin 1024, b0 (ix2 q k) = B (ix2 n (Fin.castAdd 1024 k)))
    (hb1 : ∀ k : Fin 1024, b1 (ix2 q k) = B (ix2 n (Fin.natAdd 1024 k))) :
    k2_pay2 (k2_pay2 (k2_pay1 (F := Ideal)) a0 b0) a1 b1 (ix2 p q) = ∑ k : Fin 2048, A (ix2 r k) * B (ix2 n k) := by
  rw [k2pay2_apply, k2pay2_apply, k2pay1_apply, zero_add]
  have h := Fin.sum_univ_add (M := EReal) (a := 1024) (b := 1024) (fun k => A (ix2 r k) * B (ix2 n k))
  refine Eq.trans ?_ h.symm
  congr 1
  · exact Finset.sum_congr rfl fun k _ => by rw [ha0, hb0]
  · exact Finset.sum_congr rfl fun k _ => by rw [ha1, hb1]

/-- The running block at a second-half point, at an entry, is the product's entry under it: the point before reset
    the block and added the first half of the features, this one adds the second half. -/
theorem acc_odd_apply (c : Dev nD) (t : Fin cfg2.N) (ht : t.val % 2 = 1) (p q : Fin 1024) (r : Fin 8192) (n : Fin 4096)
    (hr : r.val = win2_2.index t (0 : Fin 2) * 1024 + p.val) (hn : n.val = win2_2.index t (1 : Fin 2) * 1024 + q.val) :
    accAt2 V c t.val t.isLt (ix2 p q) = Cert.Spec.mmT (V c main_v2) (V c main_v1) (ix2 r n) := by
  have ht' : t.val - 1 < cfg2.N := Nat.lt_of_le_of_lt (Nat.sub_le _ _) t.isLt
  have hE : accAt2 V c (t.val - 1) ht' = _ := accAt2_even V c ⟨t.val - 1, ht'⟩ (by show (t.val - 1) % 2 = 0; omega)
  rw [accAt2_odd V c t ht, hE]
  obtain ⟨e0, e1, e2, e3, e4, e5⟩ := idx_facts2 t
  obtain ⟨f0, f1, f2, f3, f4, f5⟩ := idx_facts2 ⟨t.val - 1, ht'⟩
  have tv : (⟨t.val - 1, ht'⟩ : Fin cfg2.N).val = t.val - 1 := rfl
  refine two_steps (V c main_v2) (V c main_v1) _ _ _ _ r n p q ?_ ?_ ?_ ?_
  · intro k
    exact iblk2_0_apply V c ⟨t.val - 1, ht'⟩ p k r _ (by omega) (by show k.val = _; omega)
  · intro k
    exact iblk2_0_apply V c t p k r _ (by omega) (by show 1024 + k.val = _; omega)
  · intro k
    exact iblk2_1_apply V c ⟨t.val - 1, ht'⟩ q k n _ (by omega) (by show k.val = _; omega)
  · intro k
    exact iblk2_1_apply V c t q k n _ (by omega) (by show 1024 + k.val = _; omega)

/-- An index of the output array is in a point's block iff each coordinate is in the block's range on its axis. -/
theorem mem_blk2 (t : Fin cfg2.N) (i : S8192x4096.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v3).slice (win2_2.rect t)).set ↔ _
  rw [View.set_slice_whole, Rect.mem_set_unit]
  exact Iff.rfl

/-- What a second-half point writes back is its block of the product. -/
theorem flushed2_eq (c : Dev nD) (t : Fin cfg2.N) (hf : (cfg2.win 2).flush t = true) :
    (dat2 (F := Ideal) V c).flushed 2 t
      = ((cfg2.win 2).blk t).view.read (Elt Ideal) (Cert.Spec.mmT (V c main_v2) (V c main_v1)) := by
  have ht : t.val % 2 = 1 := (flush2_2 t).mp hf
  have hN : t.val < 64 := N2 ▸ t.isLt
  obtain ⟨e0, e1, e2, e3, e4, e5⟩ := idx_facts2 t
  funext j
  obtain ⟨p, q, rfl⟩ : ∃ p q : Fin 1024, j = ix2 p q := ⟨j 0, j 1, eq_ix2 j⟩
  show accAt2 V c t.val t.isLt (ix2 p q)
    = Cert.Spec.mmT (V c main_v2) (V c main_v1) (((cfg2.win 2).blk t).view.emb (ix2 p q))
  rw [acc_odd_apply V c t ht p q ⟨win2_2.index t (0 : Fin 2) * 1024 + p.val, by omega⟩
    ⟨win2_2.index t (1 : Fin 2) * 1024 + q.val, by omega⟩ rfl rfl]
  congr 1
  funext a; apply Fin.ext
  match a with
  | ⟨0, _⟩ => show win2_2.index t (0 : Fin 2) * 1024 + p.val = win2_2.index t (0 : Fin 2) * 1024 + 1 * p.val; omega
  | ⟨1, _⟩ => show win2_2.index t (1 : Fin 2) * 1024 + q.val = win2_2.index t (1 : Fin 2) * 1024 + 1 * q.val; omega

/-- Region 2's output array after the run is the product of its two operand arrays, rows against rows. -/
theorem arr2 (c : Dev nD) :
    (dat2 (F := Ideal) V c).arrAt 2 cfg2.N = Cert.Spec.mmT (V c main_v2) (V c main_v1) := by
  refine (dat2 (F := Ideal) V c).arrAt_eq_of_cover 2 _ (fun t hf => flushed2_eq V c t hf) (fun i => ?_)
  have h0 : (i 0).val < 8192 := (i 0).isLt
  have h1 : (i 1).val < 4096 := (i 1).isLt
  have hlt : 8 * ((i 0).val / 1024) + 2 * ((i 1).val / 1024) + 1 < cfg2.N := by rw [N2]; omega
  obtain ⟨e0, e1, e2, e3, e4, e5⟩ := idx_facts2 ⟨8 * ((i 0).val / 1024) + 2 * ((i 1).val / 1024) + 1, hlt⟩
  have tv : (⟨8 * ((i 0).val / 1024) + 2 * ((i 1).val / 1024) + 1, hlt⟩ : Fin cfg2.N).val
      = 8 * ((i 0).val / 1024) + 2 * ((i 1).val / 1024) + 1 := rfl
  refine ⟨⟨8 * ((i 0).val / 1024) + 2 * ((i 1).val / 1024) + 1, hlt⟩, (flush2_2 _).mpr (by omega), ?_⟩
  rw [mem_blk2]
  intro a
  match a with
  | ⟨0, _⟩ =>
    show win2_2.index _ (0 : Fin 2) * 1024 ≤ (i 0).val ∧ (i 0).val < win2_2.index _ (0 : Fin 2) * 1024 + 1024
    omega
  | ⟨1, _⟩ =>
    show win2_2.index _ (1 : Fin 2) * 1024 ≤ (i 1).val ∧ (i 1).val < win2_2.index _ (1 : Fin 2) * 1024 + 1024
    omega

end Cert.KernelIdeal.Val

end
-- ==== Proof.KI.Final.lean ====
/-
  The result's value. Following the buffers through the run at the extended reals: the first host operation leaves the
  input flattened to 8192 rows; region 0 leaves the feature matrix of the weight rows and region 1 that of the input
  rows (neither writes anything else, and both read the projection matrix and the coefficients as launched); region 2
  leaves the product of the two, rows against rows; the last host operation unflattens it. That is the one function
  `Spec.G` of the four argument arrays.
-/
import proofs.«133913_j10093173146229_1_alg».proof.Proof.KI.Run
import proofs.«133913_j10093173146229_1_alg».proof.Proof.KI.RfValue0
import proofs.«133913_j10093173146229_1_alg».proof.Proof.KI.RfValue1
import proofs.«133913_j10093173146229_1_alg».proof.Proof.KI.MmValue2
import proofs.«133913_j10093173146229_1_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-- Flattening the two leading axes by a reshape reads row `2048 b + s` at `(b, s)`. -/
theorem rows_eq (x : (⟨3, ![4, 2048, 1024]⟩ : Shape).Idx → EReal) (h : S4x2048x1024.ShapeCasts S8192x1024) :
    shapeCast S8192x1024 x h = Cert.Spec.rows x := by
  funext j
  unfold Cert.Spec.rows
  refine shapeCast_apply x h j _ ?_
  rw [Shape.rowMajor_val_three, Shape.rowMajor_val_two]
  show ((j 0).val / 2048 * 2048 + (j 0).val % 2048) * 1024 + (j 1).val = (j 0).val * 1024 + (j 1).val
  rw [Nat.div_add_mod']

/-- Unflattening by a reshape reads entry `(b, s, o)` at row `2048 b + s`. -/
theorem unrows_eq (y : (⟨2, ![8192, 4096]⟩ : Shape).Idx → EReal) (h : S8192x4096.ShapeCasts S4x2048x4096) :
    shapeCast S4x2048x4096 y h = Cert.Spec.unrows y := by
  funext j
  unfold Cert.Spec.unrows
  refine shapeCast_apply y h j _ ?_
  rw [Shape.rowMajor_val_three, Shape.rowMajor_val_two]
  rfl

variable (m : (ℓ : Loc nD τ sig) → Buf (Elt Ideal) ℓ)

/-! ## What region 0 finds -/

/-- The first host operation writes the flattened input only: every other buffer is as launched. -/
theorem Vr1_of (c : Dev nD) (r : Ref sig .tc) (h : r ∉ ([main_v0] : List (Ref sig .tc))) : Vr1 m c r = m ((c : Thread nD τ).loc r) :=
  W1_of m c r h

/-- The flattened input. -/
theorem Vr1_v0 (c : Dev nD) : Vr1 m c main_v0 = Cert.Spec.rows (m ((c : Thread nD τ).loc main_arg0)) := by
  refine Eq.trans ?_ (rows_eq (m ((c : Thread nD τ).loc main_arg0)) shapeCasts_S4x2048x1024_S8192x1024)
  show StableHlo.after hostOps0 (fun b => m (c, b)) (Proc.devRef .tc main_v0) = _
  after_results
  rfl

/-! ## What region 1 finds -/

/-- Region 0's output: the feature matrix of the weight rows. -/
theorem Vr2_v1 (c : Dev nD) : Vr2 m c main_v1
    = Cert.Spec.feat (m ((c : Thread nD τ).loc main_arg1)) (m ((c : Thread nD τ).loc main_arg3)) (m ((c : Thread nD τ).loc main_arg2)) := by
  refine (W2_arr m c 3).trans ((arr0 (Vr1 m) c).trans ?_)
  rw [Vr1_of m c main_arg1 (by decide), Vr1_of m c main_arg3 (by decide), Vr1_of m c main_arg2 (by decide)]

/-- Region 0 stages no window over the flattened input: it is as the host left it. -/
theorem Vr2_v0 (c : Dev nD) : Vr2 m c main_v0 = Cert.Spec.rows (m ((c : Thread nD τ).loc main_arg0)) :=
  (W2_of_ne m c main_v0 (by decide)).trans (Vr1_v0 m c)

/-- Region 0 only reads the projection matrix, -/
theorem Vr2_arg3 (c : Dev nD) : Vr2 m c main_arg3 = m ((c : Thread nD τ).loc main_arg3) :=
  (W2_arr m c 1).trans (((dat0 (Vr1 m) c).arrAt_in 1 rfl _).trans ((A_eq0 (Vr1 m) c 1).trans (Vr1_of m c main_arg3 (by decide))))

/-- and the coefficients. -/
theorem Vr2_arg2 (c : Dev nD) : Vr2 m c main_arg2 = m ((c : Thread nD τ).loc main_arg2) :=
  (W2_arr m c 2).trans (((dat0 (Vr1 m) c).arrAt_in 2 rfl _).trans ((A_eq0 (Vr1 m) c 2).trans (Vr1_of m c main_arg2 (by decide))))

/-! ## What region 2 finds -/

/-- Region 1's output: the feature matrix of the flattened input rows. -/
theorem Vr3_v2 (c : Dev nD) : Vr3 m c main_v2
    = Cert.Spec.feat (Cert.Spec.rows (m ((c : Thread nD τ).loc main_arg0))) (m ((c : Thread nD τ).loc main_arg3)) (m ((c : Thread nD τ).loc main_arg2)) := by
  refine (W3_arr m c 3).trans ((arr1 (Vr2 m) c).trans ?_)
  rw [Vr2_v0 m c, Vr2_arg3 m c, Vr2_arg2 m c]

/-- Region 1 stages no window over region 0's output. -/
theorem Vr3_v1 (c : Dev nD) : Vr3 m c main_v1
    = Cert.Spec.feat (m ((c : Thread nD τ).loc main_arg1)) (m ((c : Thread nD τ).loc main_arg3)) (m ((c : Thread nD τ).loc main_arg2)) :=
  (W3_of_ne m c main_v1 (by decide)).trans (Vr2_v1 m c)

/-! ## The result -/

/-- The result buffer at the end of the run is `Spec.G` of the four launch arrays. -/
theorem W5_main_v4 (c : Dev nD) : W5 m c (Proc.devRef .tc main_v4)
    = Cert.Spec.G (m ((c : Thread nD τ).loc main_arg0)) (m ((c : Thread nD τ).loc main_arg1)) (m ((c : Thread nD τ).loc main_arg2)) (m ((c : Thread nD τ).loc main_arg3)) := by
  have h4 : W4 m c (Proc.devRef .tc main_v3)
      = Cert.Spec.mmT (Cert.Spec.feat (Cert.Spec.rows (m ((c : Thread nD τ).loc main_arg0))) (m ((c : Thread nD τ).loc main_arg3)) (m ((c : Thread nD τ).loc main_arg2)))
          (Cert.Spec.feat (m ((c : Thread nD τ).loc main_arg1)) (m ((c : Thread nD τ).loc main_arg3)) (m ((c : Thread nD τ).loc main_arg2))) := by
    refine (W4_arr m c 2).trans ((arr2 (Vr3 m) c).trans ?_)
    rw [Vr3_v2 m c, Vr3_v1 m c]
  unfold Cert.Spec.G
  rw [← h4, ← unrows_eq _ shapeCasts_S8192x4096_S4x2048x4096]
  show StableHlo.after hostOps3 (W4 m c) (Proc.devRef .tc main_v4) = _
  after_results
  rfl

/-- The idealized kernel's run: it terminates, nothing faulting, with the result at `Spec.G` of the launch arrays and the
    four arguments as launched. -/
theorem run_G (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (W5_main_v4 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

end Cert.KernelIdeal.Val

end
-- ==== Proof.RefValue.lean ====
import proofs.«133913_j10093173146229_1_alg».proof.Defs
import proofs.«133913_j10093173146229_1_alg».proof.Proof.Gen.ReferenceIdeal.Run
import proofs.«133913_j10093173146229_1_alg».proof.Proof.Gen.ReferenceIdeal.Read
import proofs.«133913_j10093173146229_1_alg».proof.Proof.Spec
import Idealize.ShloMosaic.Lib.IdealHost

/-!
  The reference program's result, index by index, is the product of the two feature matrices of Cert.Spec.

  The reference builds each feature as (s * 1) * exp (dot - (h * (0 + sum of squares)) * (a * a)): the factor 1
  and the summand 0 are float words whose values are the real one and zero, so they drop out; every broadcast reads
  its operand at the coordinates it keeps; the last contraction runs over the 2048 features. The reference works at
  rank 3 throughout, so flattening the two leading axes and unflattening the result cancel: row 2048 b + s
  is row (b, s).
-/

noncomputable section

open scoped BigOperators

namespace Cert.ReferenceIdeal.RefValue

open Cert.ReferenceIdeal Cert.ReferenceIdeal.Read Idealize.ShloMosaic Idealize.ShloMosaic.ValueIdx
  Idealize.ShloMosaic.TcCoe Idealize.SL.Sem

/-- The scale word times the word of one is the scale word (weight side). -/
theorem scale_w (i : S2048.Idx) : val_main_v16 (F := Ideal) i = Cert.Spec.scale := by
  rw [val_main_v16_apply, val_main_v15_apply, val_main_cst_2_apply, val_main_v0_apply, val_main_cst_apply]
  simp only [Ideal.mulf_def, Ideal.ofBits_def, Ideal.ofBits_one_f32, mul_one]

/-- The scale word times the word of one is the scale word (input side). -/
theorem scale_x (i : S2048.Idx) : val_main_v37 (F := Ideal) i = Cert.Spec.scale := by
  rw [val_main_v37_apply, val_main_v36_apply, val_main_cst_5_apply, val_main_v0_apply, val_main_cst_apply]
  simp only [Ideal.mulf_def, Ideal.ofBits_def, Ideal.ofBits_one_f32, mul_one]

/-- The weight rows' feature matrix at (o, m) is the feature of row o against projection row m. -/
theorem feat_w (x1 : (⟨S4096x1024, .f32⟩ : BufTy).Contents (Elt Ideal)) (x2 : (⟨S2048, .f32⟩ : BufTy).Contents (Elt Ideal))
    (x3 : (⟨S2048x1024, .f32⟩ : BufTy).Contents (Elt Ideal)) (o : Fin 4096) (m : Fin 2048) :
    val_main_v21 (F := Ideal) x1 x2 x3 (ix2 o m)
      = Cert.Spec.featAt (fun d => x1 (ix2 o d)) (fun d => x3 (ix2 m d)) (x2 (ix1 m)) := by
  rw [val_main_v21_apply, val_main_v20_apply, val_main_v19_apply, scale_w, val_main_v18_apply, val_main_v17_apply,
    val_main_v4_apply, val_main_v14_apply, val_main_v12_apply, val_main_v9_apply, val_main_v8_apply,
    val_main_cst_1_apply, val_main_v7_apply, val_main_v6_apply, val_main_cst_0_apply, val_main_v13_apply,
    val_main_v11_apply, val_main_v10_apply]
  simp only [val_main_v3_apply, val_main_v2_apply, val_main_v1_apply, val_main_v5_apply]
  have e1 : ∀ k : Fin 1024, lidx_main_v4 (ix2 o m) k = ix2 o k := fun k =>
    funext fun a => by match a with | ⟨0, _⟩ => rfl | ⟨1, _⟩ => rfl
  have e2 : ∀ k : Fin 1024, ridx_main_v4 (ix2 o m) k = ix2 m k := fun k =>
    funext fun a => by match a with | ⟨0, _⟩ => rfl | ⟨1, _⟩ => rfl
  have e3 : ∀ k : Fin 1024, idx_main_v1 (idx_main_v2 (ix2 m k)) = ix1 m := fun k =>
    funext fun a => by match a with | ⟨0, _⟩ => rfl
  have e4 : ∀ k : Fin 1024, idx_main_v6 (idx_main_v7 (idx_main_v12 (ix2 o m))) k = ix2 o k := fun k =>
    funext fun a => by match a with | ⟨0, _⟩ => rfl | ⟨1, _⟩ => rfl
  have e5 : idx_main_v11 (idx_main_v13 (ix2 o m)) = ix1 m :=
    funext fun a => by match a with | ⟨0, _⟩ => rfl
  simp only [e1, e2, e3, e4, e5, Ideal.mulf_def, Ideal.subf_def, Ideal.ofBits_def, Ideal.hostUnary_exp_def,
    Ideal.ofBits_zero_f32, zero_add]
  rfl

/-- The input rows' feature array at (b, s, m) is the feature of row (b, s) against projection row m. -/
theorem feat_x (x0 : (⟨S4x2048x1024, .f32⟩ : BufTy).Contents (Elt Ideal)) (x2 : (⟨S2048, .f32⟩ : BufTy).Contents (Elt Ideal))
    (x3 : (⟨S2048x1024, .f32⟩ : BufTy).Contents (Elt Ideal)) (b : Fin 4) (s : Fin 2048) (m : Fin 2048) :
    val_main_v42 (F := Ideal) x0 x2 x3 (ix3 b s m)
      = Cert.Spec.featAt (fun d => x0 (ix3 b s d)) (fun d => x3 (ix2 m d)) (x2 (ix1 m)) := by
  rw [val_main_v42_apply, val_main_v41_apply, val_main_v40_apply, scale_x, val_main_v39_apply, val_main_v38_apply,
    val_main_v25_apply, val_main_v35_apply, val_main_v33_apply, val_main_v30_apply, val_main_v29_apply,
    val_main_cst_4_apply, val_main_v28_apply, val_main_v27_apply, val_main_cst_3_apply, val_main_v34_apply,
    val_main_v32_apply, val_main_v31_apply]
  simp only [val_main_v24_apply, val_main_v23_apply, val_main_v22_apply, val_main_v26_apply]
  have e1 : ∀ k : Fin 1024, lidx_main_v25 (ix3 b s m) k = ix3 b s k := fun k =>
    funext fun a => by match a with | ⟨0, _⟩ => rfl | ⟨1, _⟩ => rfl | ⟨2, _⟩ => rfl
  have e2 : ∀ k : Fin 1024, ridx_main_v25 (ix3 b s m) k = ix2 m k := fun k =>
    funext fun a => by match a with | ⟨0, _⟩ => rfl | ⟨1, _⟩ => rfl
  have e3 : ∀ k : Fin 1024, idx_main_v22 (idx_main_v23 (ix2 m k)) = ix1 m := fun k =>
    funext fun a => by match a with | ⟨0, _⟩ => rfl
  have e4 : ∀ k : Fin 1024, idx_main_v27 (idx_main_v28 (idx_main_v33 (ix3 b s m))) k = ix3 b s k := fun k =>
    funext fun a => by match a with | ⟨0, _⟩ => rfl | ⟨1, _⟩ => rfl | ⟨2, _⟩ => rfl
  have e5 : idx_main_v32 (idx_main_v34 (ix3 b s m)) = ix1 m :=
    funext fun a => by match a with | ⟨0, _⟩ => rfl
  simp only [e1, e2, e3, e4, e5, Ideal.mulf_def, Ideal.subf_def, Ideal.ofBits_def, Ideal.hostUnary_exp_def,
    Ideal.ofBits_zero_f32, zero_add]
  rfl

/-- Row 2048 b + s of the flattened input is row (b, s): the quotient by 2048 is b, the remainder s. -/
theorem rows_at (x0 : (⟨3, ![4, 2048, 1024]⟩ : Shape).Idx → EReal) (b : Fin 4) (s : Fin 2048) (d : Fin 1024) :
    Cert.Spec.rows x0 (@ix2 8192 1024 ⟨b.val * 2048 + s.val, Cert.Spec.flat_lt b s⟩ d) = x0 (ix3 b s d) := by
  unfold Cert.Spec.rows
  refine congrArg x0 (funext fun a => ?_)
  have hs := s.isLt
  match a with
  | ⟨0, _⟩ => exact Fin.ext (by show (b.val * 2048 + s.val) / 2048 = b.val; omega)
  | ⟨1, _⟩ => exact Fin.ext (by show (b.val * 2048 + s.val) % 2048 = s.val; omega)
  | ⟨2, _⟩ => rfl

/-- The reference's result is Cert.Spec.G of its four arguments. -/
theorem result_eq (x0 : (⟨S4x2048x1024, .f32⟩ : BufTy).Contents (Elt Ideal)) (x1 : (⟨S4096x1024, .f32⟩ : BufTy).Contents (Elt Ideal))
    (x2 : (⟨S2048, .f32⟩ : BufTy).Contents (Elt Ideal)) (x3 : (⟨S2048x1024, .f32⟩ : BufTy).Contents (Elt Ideal)) :
    val_main_v43 (F := Ideal) x0 x1 x2 x3 = Cert.Spec.G x0 x1 x2 x3 := by
  funext i
  obtain ⟨b, s, o, rfl⟩ : ∃ (b : Fin 4) (s : Fin 2048) (o : Fin 4096), i = ix3 b s o := ⟨i 0, i 1, i 2, eq_ix3 i⟩
  rw [val_main_v43_apply]
  show _ = ∑ k : Fin 2048,
    Cert.Spec.featAt (fun d => Cert.Spec.rows x0 (@ix2 8192 1024 ⟨b.val * 2048 + s.val, Cert.Spec.flat_lt b s⟩ d))
        (fun d => x3 (ix2 k d)) (x2 (ix1 k))
      * Cert.Spec.featAt (fun d => x1 (ix2 o d)) (fun d => x3 (ix2 k d)) (x2 (ix1 k))
  refine Finset.sum_congr rfl fun k _ => ?_
  have el : lidx_main_v43 (ix3 b s o) k = ix3 b s k :=
    funext fun a => by match a with | ⟨0, _⟩ => rfl | ⟨1, _⟩ => rfl | ⟨2, _⟩ => rfl
  have er : ridx_main_v43 (ix3 b s o) k = ix2 o k :=
    funext fun a => by match a with | ⟨0, _⟩ => rfl | ⟨1, _⟩ => rfl
  rw [el, er, feat_x, feat_w]
  simp only [rows_at]

/-- Every execution of the reference ends with its result at Cert.Spec.G of the four launch arrays, the arguments
    unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v43)
          = Cert.Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3) :=
  (θ_run _ _ _).mono
    (fun _ h c => ⟨(h c).1.trans ((Read.val_main_v43_eq (F := Ideal) _ _ _ _).trans (result_eq _ _ _ _)), (h c).2⟩)
    (Cert.ReferenceIdeal.Value.run (F := Ideal) m ρ)

end Cert.ReferenceIdeal.RefValue

end
-- ==== Proof.lean ====
/-
  The certificate. Both programs compute, on the extended reals, the same function of the four argument arrays
  (Proof/Spec.lean): the features of the input rows times the features of the weight rows, contracted over the 2048
  features. The reference multiplies each feature by the constant one and adds its sums to zero; the kernel adds the two
  halves of the contraction to zero one after the other: unit and associativity laws of the extended reals, no
  finiteness. The kernel's three regions are framed by hand (Proof/KI for the idealized program, Proof/K for the program
  as printed: the same text at the other namespace); the reference's run is the generated one.
-/
import proofs.«133913_j10093173146229_1_alg».proof.Defs
import proofs.«133913_j10093173146229_1_alg».proof.Proof.Gen.Kernel
import proofs.«133913_j10093173146229_1_alg».proof.Proof.Gen.KernelIdeal
import proofs.«133913_j10093173146229_1_alg».proof.Proof.Gen.ReferenceIdeal
import proofs.«133913_j10093173146229_1_alg».proof.Proof.Gen.Pre_finite_inputs
import proofs.«133913_j10093173146229_1_alg».proof.Proof.Gen.ReferenceIdeal.Run
import proofs.«133913_j10093173146229_1_alg».proof.Proof.K.Run
import proofs.«133913_j10093173146229_1_alg».proof.Proof.KI.Run
import proofs.«133913_j10093173146229_1_alg».proof.Proof.KI.Final
import proofs.«133913_j10093173146229_1_alg».proof.Proof.RefValue
import Idealize.ShloMosaic.Adequacy
import Idealize.ShloMosaic.Init

noncomputable section

namespace Cert.Proof

open Idealize.ShloMosaic Idealize.SL.Sem

/-- The program as printed runs to the end and leaves its arguments as launched. -/
theorem frame_k : Cert.frame_Kernel := fun m ρ _ => Cert.Kernel.Fr.frame m ρ

/-- So does the idealized program. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the result at the same function of them. -/
theorem algebraic : Cert.algebraic_KernelIdeal_ReferenceIdeal := by
  intro m ρ m' ρ' _ hagree
  refine ⟨_, Cert.KernelIdeal.Val.run_G m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
